-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v130)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v130) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x512x32 : Shape := ⟨4, ![8, 512, 512, 32]⟩
abbrev S8x512x512x2 : Shape := ⟨4, ![8, 512, 512, 2]⟩
abbrev S_ : Shape := ⟨0, ![]⟩

class Facts : Prop where
  bcast_S_S8x512x512x32 : S_.BroadcastsInDim S8x512x512x32 (![] : Fin 0 → Fin S8x512x512x32.rank)
  reducesTo_S8x512x512x32_S_d0_1_2_3 : S8x512x512x32.ReducesTo [0, 1, 2, 3] S_
  h_S_ : 0 < S_.numel
  bcast_S_S8x512x512x2 : S_.BroadcastsInDim S8x512x512x2 (![] : Fin 0 → Fin S8x512x512x2.rank)
  reducesTo_S8x512x512x2_S_d0_1_2_3 : S8x512x512x2.ReducesTo [0, 1, 2, 3] S_

variable [Facts]

def fn {F : FTy → Type} [FloatOps F] (main_arg0 : FVec F S8x512x512x32 .f32) (main_arg1 : FVec F S8x512x512x2 .f32) : IVec S_ 1 :=
  let main_v0 : FVec F S8x512x512x32 .f32 := Host.absf main_arg0
  let main_cst : FVec F S_ .f32 := constant S_ .f32 0x7F800000#32
  let main_v1 : FVec F S8x512x512x32 .f32 := broadcastInDim S8x512x512x32 ![] bcast_S_S8x512x512x32 main_cst
  let main_v2 : IVec S8x512x512x32 1 := cmpf .olt main_v0 main_v1
  let main_c : IVec S_ 1 := constantI S_ 1 1#1
  let main_v3 : IVec S_ 1 := (fun x v => Host.reduce IntOp.andi x v reducesTo_S8x512x512x32_S_d0_1_2_3 h_S_) main_v2 main_c
  let main_v4 : FVec F S8x512x512x2 .f32 := Host.absf main_arg1
  let main_cst_0 : FVec F S_ .f32 := constant S_ .f32 0x7F800000#32
  let main_v5 : FVec F S8x512x512x2 .f32 := broadcastInDim S8x512x512x2 ![] bcast_S_S8x512x512x2 main_cst_0
  let main_v6 : IVec S8x512x512x2 1 := cmpf .olt main_v4 main_v5
  let main_c_1 : IVec S_ 1 := constantI S_ 1 1#1
  let main_v7 : IVec S_ 1 := (fun x v => Host.reduce IntOp.andi x v reducesTo_S8x512x512x2_S_d0_1_2_3 h_S_) main_v6 main_c_1
  let main_v8 : IVec S_ 1 := andi main_v3 main_v7
  main_v8
-- ==== Kernel.lean ====
abbrev S8x512x512x32 : Shape := ⟨4, ![8, 512, 512, 32]⟩
abbrev S8x512x512x2 : Shape := ⟨4, ![8, 512, 512, 2]⟩
abbrev S8x512x512x1 : Shape := ⟨4, ![8, 512, 512, 1]⟩
abbrev S8x512x512 : Shape := ⟨3, ![8, 512, 512]⟩
abbrev S_ : Shape := ⟨0, ![]⟩
abbrev S8 : Shape := ⟨1, ![8]⟩
abbrev S8x1x1 : Shape := ⟨3, ![8, 1, 1]⟩
abbrev S8x512x512x3 : Shape := ⟨4, ![8, 512, 512, 3]⟩
abbrev S1x32x512x32 : Shape := ⟨4, ![1, 32, 512, 32]⟩
abbrev S1x32x512 : Shape := ⟨3, ![1, 32, 512]⟩
abbrev S32x512 : Shape := ⟨2, ![32, 512]⟩
abbrev S32x512x1 : Shape := ⟨3, ![32, 512, 1]⟩
abbrev S32x512x32 : Shape := ⟨3, ![32, 512, 32]⟩

abbrev nBuf : Space → Nat
  | .hbm => 193
  | .vmem => 18
  | .smem => 0
  | _ => 0

abbrev hbmTy0_0 (i : Nat) : BufTy := match i % 128 with
  | 0 => ⟨S8x512x512x32, .f32⟩
  | 1 => ⟨S8x512x512x2, .f32⟩
  | 2 => ⟨S8x512x512x1, .f32⟩
  | 3 => ⟨S8x512x512, .f32⟩
  | 4 => ⟨S_, .f32⟩
  | 5 => ⟨S8x512x512, .f32⟩
  | 6 => ⟨S8x512x512, .f32⟩
  | 7 => ⟨S_, .f32⟩
  | 8 => ⟨S8x512x512, .f32⟩
  | 9 => ⟨S8x512x512, .f32⟩
  | 10 => ⟨S_, .f32⟩
  | 11 => ⟨S8x512x512, .f32⟩
  | 12 => ⟨S8x512x512, .f32⟩
  | 13 => ⟨S8x512x512x1, .f32⟩
  | 14 => ⟨S8x512x512, .f32⟩
  | 15 => ⟨S_, .f32⟩
  | 16 => ⟨S8x512x512, .f32⟩
  | 17 => ⟨S8x512x512, .f32⟩
  | 18 => ⟨S_, .f32⟩
  | 19 => ⟨S8x512x512, .f32⟩
  | 20 => ⟨S8x512x512, .f32⟩
  | 21 => ⟨S_, .f32⟩
  | 22 => ⟨S8x512x512, .f32⟩
  | 23 => ⟨S8x512x512, .f32⟩
  | 24 => ⟨S8x512x512, .f32⟩
  | 25 => ⟨S8x512x512, .i32⟩
  | 26 => ⟨S_, .i32⟩
  | 27 => ⟨S8x512x512, .i32⟩
  | 28 => ⟨S8x512x512, .i32⟩
  | 29 => ⟨S8x512x512, .f32⟩
  | 30 => ⟨S8x512x512, .i32⟩
  | 31 => ⟨S_, .i32⟩
  | 32 => ⟨S8x512x512, .i32⟩
  | 33 => ⟨S8x512x512, .i32⟩
  | 34 => ⟨S_, .i32⟩
  | 35 => ⟨S_, .i32⟩
  | 36 => ⟨S_, .i32⟩
  | 37 => ⟨S8x512x512, .i32⟩
  | 38 => ⟨S8x512x512, .i32⟩
  | 39 => ⟨S_, .i32⟩
  | 40 => ⟨S8x512x512, .i32⟩
  | 41 => ⟨S8x512x512, .i32⟩
  | 42 => ⟨S_, .i32⟩
  | 43 => ⟨S_, .i32⟩
  | 44 => ⟨S_, .i32⟩
  | 45 => ⟨S8x512x512, .i32⟩
  | 46 => ⟨S8x512x512, .i32⟩
  | 47 => ⟨S_, .i32⟩
  | 48 => ⟨S8x512x512, .i32⟩
  | 49 => ⟨S8x512x512, .i32⟩
  | 50 => ⟨S_, .i32⟩
  | 51 => ⟨S_, .i32⟩
  | 52 => ⟨S_, .i32⟩
  | 53 => ⟨S8x512x512, .i32⟩
  | 54 => ⟨S8x512x512, .i32⟩
  | 55 => ⟨S_, .i32⟩
  | 56 => ⟨S8x512x512, .i32⟩
  | 57 => ⟨S8x512x512, .i32⟩
  | 58 => ⟨S_, .i32⟩
  | 59 => ⟨S_, .i32⟩
  | 60 => ⟨S_, .i32⟩
  | 61 => ⟨S8x512x512, .i32⟩
  | 62 => ⟨S8x512x512, .i32⟩
  | 63 => ⟨S_, .i32⟩
  | 64 => ⟨S8x512x512, .i32⟩
  | 65 => ⟨S8x512x512, .i32⟩
  | 66 => ⟨S8, .i32⟩
  | 67 => ⟨S8x1x1, .i32⟩
  | 68 => ⟨S_, .i32⟩
  | 69 => ⟨S8x1x1, .i32⟩
  | 70 => ⟨S8x1x1, .i1⟩
  | 71 => ⟨S_, .i32⟩
  | 72 => ⟨S8x1x1, .i32⟩
  | 73 => ⟨S8x1x1, .i32⟩
  | 74 => ⟨S8x1x1, .i32⟩
  | 75 => ⟨S_, .i32⟩
  | 76 => ⟨S8x512x512, .i32⟩
  | 77 => ⟨S8x512x512, .i1⟩
  | 78 => ⟨S_, .i32⟩
  | 79 => ⟨S8x512x512, .i32⟩
  | 80 => ⟨S8x512x512, .i32⟩
  | 81 => ⟨S8x512x512, .i32⟩
  | 82 => ⟨S_, .i32⟩
  | 83 => ⟨S8x512x512, .i32⟩
  | 84 => ⟨S8x512x512, .i1⟩
  | 85 => ⟨S_, .i32⟩
  | 86 => ⟨S8x512x512, .i32⟩
  | 87 => ⟨S8x512x512, .i32⟩
  | 88 => ⟨S8x512x512, .i32⟩
  | 89 => ⟨S8x512x512, .i32⟩
  | 90 => ⟨S8x512x512x1, .i32⟩
  | 91 => ⟨S8x512x512x1, .i32⟩
  | 92 => ⟨S8x512x512x1, .i32⟩
  | 93 => ⟨S8x512x512x3, .i32⟩
  | 94 => ⟨S8x512x512x32, .f32⟩
  | 95 => ⟨S_, .i32⟩
  | 96 => ⟨S8x1x1, .i32⟩
  | 97 => ⟨S8x1x1, .i1⟩
  | 98 => ⟨S_, .i32⟩
  | 99 => ⟨S8x1x1, .i32⟩
  | 100 => ⟨S8x1x1, .i32⟩
  | 101 => ⟨S8x1x1, .i32⟩
  | 102 => ⟨S_, .i32⟩
  | 103 => ⟨S8x512x512, .i32⟩
  | 104 => ⟨S8x512x512, .i1⟩
  | 105 => ⟨S_, .i32⟩
  | 106 => ⟨S8x512x512, .i32⟩
  | 107 => ⟨S8x512x512, .i32⟩
  | 108 => ⟨S8x512x512, .i32⟩
  | 109 => ⟨S_, .i32⟩
  | 110 => ⟨S8x512x512, .i32⟩
  | 111 => ⟨S8x512x512, .i1⟩
  | 112 => ⟨S_, .i32⟩
  | 113 => ⟨S8x512x512, .i32⟩
  | 114 => ⟨S8x512x512, .i32⟩
  | 115 => ⟨S8x512x512, .i32⟩
  | 116 => ⟨S8x512x512, .i32⟩
  | 117 => ⟨S8x512x512x1, .i32⟩
  | 118 => ⟨S8x512x512x1, .i32⟩
  | 119 => ⟨S8x512x512x1, .i32⟩
  | 120 => ⟨S8x512x512x3, .i32⟩
  | 121 => ⟨S8x512x512x32, .f32⟩
  | 122 => ⟨S_, .i32⟩
  | 123 => ⟨S8x1x1, .i32⟩
  | 124 => ⟨S8x1x1, .i1⟩
  | 125 => ⟨S_, .i32⟩
  | 126 => ⟨S8x1x1, .i32⟩
  | 127 => ⟨S8x1x1, .i32⟩
  | _ => ⟨S8x512x512x32, .f32⟩

abbrev hbmTy0_1 (i : Nat) : BufTy := match i % 128 with
  | 0 => ⟨S8x1x1, .i32⟩
  | 1 => ⟨S_, .i32⟩
  | 2 => ⟨S8x512x512, .i32⟩
  | 3 => ⟨S8x512x512, .i1⟩
  | 4 => ⟨S_, .i32⟩
  | 5 => ⟨S8x512x512, .i32⟩
  | 6 => ⟨S8x512x512, .i32⟩
  | 7 => ⟨S8x512x512, .i32⟩
  | 8 => ⟨S_, .i32⟩
  | 9 => ⟨S8x512x512, .i32⟩
  | 10 => ⟨S8x512x512, .i1⟩
  | 11 => ⟨S_, .i32⟩
  | 12 => ⟨S8x512x512, .i32⟩
  | 13 => ⟨S8x512x512, .i32⟩
  | 14 => ⟨S8x512x512, .i32⟩
  | 15 => ⟨S8x512x512, .i32⟩
  | 16 => ⟨S8x512x512x1, .i32⟩
  | 17 => ⟨S8x512x512x1, .i32⟩
  | 18 => ⟨S8x512x512x1, .i32⟩
  | 19 => ⟨S8x512x512x3, .i32⟩
  | 20 => ⟨S8x512x512x32, .f32⟩
  | 21 => ⟨S_, .i32⟩
  | 22 => ⟨S8x1x1, .i32⟩
  | 23 => ⟨S8x1x1, .i1⟩
  | 24 => ⟨S_, .i32⟩
  | 25 => ⟨S8x1x1, .i32⟩
  | 26 => ⟨S8x1x1, .i32⟩
  | 27 => ⟨S8x1x1, .i32⟩
  | 28 => ⟨S_, .i32⟩
  | 29 => ⟨S8x512x512, .i32⟩
  | 30 => ⟨S8x512x512, .i1⟩
  | 31 => ⟨S_, .i32⟩
  | 32 => ⟨S8x512x512, .i32⟩
  | 33 => ⟨S8x512x512, .i32⟩
  | 34 => ⟨S8x512x512, .i32⟩
  | 35 => ⟨S_, .i32⟩
  | 36 => ⟨S8x512x512, .i32⟩
  | 37 => ⟨S8x512x512, .i1⟩
  | 38 => ⟨S_, .i32⟩
  | 39 => ⟨S8x512x512, .i32⟩
  | 40 => ⟨S8x512x512, .i32⟩
  | 41 => ⟨S8x512x512, .i32⟩
  | 42 => ⟨S8x512x512, .i32⟩
  | 43 => ⟨S8x512x512x1, .i32⟩
  | 44 => ⟨S8x512x512x1, .i32⟩
  | 45 => ⟨S8x512x512x1, .i32⟩
  | 46 => ⟨S8x512x512x3, .i32⟩
  | 47 => ⟨S8x512x512x32, .f32⟩
  | 48 => ⟨S8x512x512, .f32⟩
  | 49 => ⟨S8x512x512, .f32⟩
  | 50 => ⟨S8x512x512, .f32⟩
  | 51 => ⟨S8x512x512, .f32⟩
  | 52 => ⟨S8x512x512, .f32⟩
  | 53 => ⟨S8x512x512, .f32⟩
  | 54 => ⟨S8x512x512, .f32⟩
  | 55 => ⟨S8x512x512, .f32⟩
  | 56 => ⟨S8x512x512, .f32⟩
  | 57 => ⟨S8x512x512, .f32⟩
  | 58 => ⟨S8x512x512, .f32⟩
  | 59 => ⟨S8x512x512, .f32⟩
  | 60 => ⟨S8x512x512, .f32⟩
  | 61 => ⟨S8x512x512, .f32⟩
  | 62 => ⟨S8x512x512, .f32⟩
  | 63 => ⟨S8x512x512, .f32⟩
  | 64 => ⟨S8x512x512x32, .f32⟩
  | _ => ⟨S8x512x512x32, .f32⟩

abbrev hbmTy (i : Nat) : BufTy := match i / 128 with
  | 0 => hbmTy0_0 i
  | 1 => hbmTy0_1 i
  | _ => ⟨S8x512x512x32, .f32⟩

abbrev bufTy : (tb : Table) → Fin (tcTables nBuf tb) → BufTy
  | .hbm, ⟨i, _⟩ => hbmTy i
  | .local _ .vmem, ⟨0, _⟩ => ⟨S1x32x512x32, .f32⟩
  | .local _ .vmem, ⟨1, _⟩ => ⟨S1x32x512x32, .f32⟩
  | .local _ .vmem, ⟨2, _⟩ => ⟨S1x32x512x32, .f32⟩
  | .local _ .vmem, ⟨3, _⟩ => ⟨S1x32x512x32, .f32⟩
  | .local _ .vmem, ⟨4, _⟩ => ⟨S1x32x512x32, .f32⟩
  | .local _ .vmem, ⟨5, _⟩ => ⟨S1x32x512x32, .f32⟩
  | .local _ .vmem, ⟨6, _⟩ => ⟨S1x32x512x32, .f32⟩
  | .local _ .vmem, ⟨7, _⟩ => ⟨S1x32x512x32, .f32⟩
  | .local _ .vmem, ⟨8, _⟩ => ⟨S1x32x512, .f32⟩
  | .local _ .vmem, ⟨9, _⟩ => ⟨S1x32x512, .f32⟩
  | .local _ .vmem, ⟨10, _⟩ => ⟨S1x32x512, .f32⟩
  | .local _ .vmem, ⟨11, _⟩ => ⟨S1x32x512, .f32⟩
  | .local _ .vmem, ⟨12, _⟩ => ⟨S1x32x512, .f32⟩
  | .local _ .vmem, ⟨13, _⟩ => ⟨S1x32x512, .f32⟩
  | .local _ .vmem, ⟨14, _⟩ => ⟨S1x32x512, .f32⟩
  | .local _ .vmem, ⟨15, _⟩ => ⟨S1x32x512, .f32⟩
  | .local _ .vmem, ⟨16, _⟩ => ⟨S1x32x512x32, .f32⟩
  | .local _ .vmem, ⟨17, _⟩ => ⟨S1x32x512x32, .f32⟩
  | _, _ => ⟨S8x512x512x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_c_7 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_c_8 : Ref sig .tc := ⟨.hbm, 42, rfl⟩
abbrev main_c_9 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v25 : Ref sig .tc := ⟨.hbm, 49, rfl⟩
abbrev main_c_10 : Ref sig .tc := ⟨.hbm, 50, rfl⟩
abbrev main_c_11 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v26 : Ref sig .tc := ⟨.hbm, 57, rfl⟩
abbrev main_c_12 : Ref sig .tc := ⟨.hbm, 58, rfl⟩
abbrev main_c_13 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_c_14 : Ref sig .tc := ⟨.hbm, 68, rfl⟩
abbrev main_v30 : Ref sig .tc := ⟨.hbm, 69, rfl⟩
abbrev main_v31 : Ref sig .tc := ⟨.hbm, 70, rfl⟩
abbrev main_c_15 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c_16 : Ref sig .tc := ⟨.hbm, 75, rfl⟩
abbrev main_v35 : Ref sig .tc := ⟨.hbm, 76, rfl⟩
abbrev main_v36 : Ref sig .tc := ⟨.hbm, 77, rfl⟩
abbrev main_c_17 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_18 : Ref sig .tc := ⟨.hbm, 82, rfl⟩
abbrev main_v40 : Ref sig .tc := ⟨.hbm, 83, rfl⟩
abbrev main_v41 : Ref sig .tc := ⟨.hbm, 84, rfl⟩
abbrev main_c_19 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_c_20 : Ref sig .tc := ⟨.hbm, 95, rfl⟩
abbrev main_v51 : Ref sig .tc := ⟨.hbm, 96, rfl⟩
abbrev main_v52 : Ref sig .tc := ⟨.hbm, 97, rfl⟩
abbrev main_c_21 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_c_22 : Ref sig .tc := ⟨.hbm, 102, rfl⟩
abbrev main_v56 : Ref sig .tc := ⟨.hbm, 103, rfl⟩
abbrev main_v57 : Ref sig .tc := ⟨.hbm, 104, rfl⟩
abbrev main_c_23 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_c_24 : Ref sig .tc := ⟨.hbm, 109, rfl⟩
abbrev main_v61 : Ref sig .tc := ⟨.hbm, 110, rfl⟩
abbrev main_v62 : Ref sig .tc := ⟨.hbm, 111, rfl⟩
abbrev main_c_25 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_26 : Ref sig .tc := ⟨.hbm, 122, rfl⟩
abbrev main_v72 : Ref sig .tc := ⟨.hbm, 123, rfl⟩
abbrev main_v73 : Ref sig .tc := ⟨.hbm, 124, rfl⟩
abbrev main_c_27 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_28 : Ref sig .tc := ⟨.hbm, 129, rfl⟩
abbrev main_v77 : Ref sig .tc := ⟨.hbm, 130, rfl⟩
abbrev main_v78 : Ref sig .tc := ⟨.hbm, 131, rfl⟩
abbrev main_c_29 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_30 : Ref sig .tc := ⟨.hbm, 136, rfl⟩
abbrev main_v82 : Ref sig .tc := ⟨.hbm, 137, rfl⟩
abbrev main_v83 : Ref sig .tc := ⟨.hbm, 138, rfl⟩
abbrev main_c_31 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_32 : Ref sig .tc := ⟨.hbm, 149, rfl⟩
abbrev main_v93 : Ref sig .tc := ⟨.hbm, 150, rfl⟩
abbrev main_v94 : Ref sig .tc := ⟨.hbm, 151, rfl⟩
abbrev main_c_33 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_c_34 : Ref sig .tc := ⟨.hbm, 156, rfl⟩
abbrev main_v98 : Ref sig .tc := ⟨.hbm, 157, rfl⟩
abbrev main_v99 : Ref sig .tc := ⟨.hbm, 158, rfl⟩
abbrev main_c_35 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_c_36 : Ref sig .tc := ⟨.hbm, 163, rfl⟩
abbrev main_v103 : Ref sig .tc := ⟨.hbm, 164, rfl⟩
abbrev main_v104 : Ref sig .tc := ⟨.hbm, 165, rfl⟩
abbrev main_c_37 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x512x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x32x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x32x512x32 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  slices_S8x512x512x2_S8x512x512x1_0_0_0_0 : S8x512x512x2.Slices ![0, 0, 0, 0] S8x512x512x1
  shapeCasts_S8x512x512x1_S8x512x512 : S8x512x512x1.ShapeCasts S8x512x512
  bcast_S_S8x512x512 : S_.BroadcastsInDim S8x512x512 (![] : Fin 0 → Fin S8x512x512.rank)
  slices_S8x512x512x2_S8x512x512x1_0_0_0_1 : S8x512x512x2.Slices ![0, 0, 0, 1] S8x512x512x1
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  bcast_S8x512x512_S8x512x512x1_0_1_2 : S8x512x512.BroadcastsInDim S8x512x512x1 (![0, 1, 2] : Fin 3 → Fin S8x512x512x1.rank)
  concatenates_S8x512x512x1_S8x512x512x1_S8x512x512x1_S8x512x512x3_d3 : Shape.Concatenates [S8x512x512x1, S8x512x512x1, S8x512x512x1] S8x512x512x3 3
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S32x512x1 : S32x512.ShapeCasts S32x512x1
  inb_S1x32x512x32_S1x32x512x32_0_0_0_0 : ∀ a, (![0, 0, 0, 0] : Fin 4 → Nat) a + S1x32x512x32.size a ≤ S1x32x512x32.size a
  h_S1x32x512x32 : 0 < S1x32x512x32.numel
  shapeCasts_S1x32x512x32_S32x512x32 : S1x32x512x32.ShapeCasts S32x512x32
  broadcasts_S32x512x1_S32x512x32 : S32x512x1.Broadcasts S32x512x32
  shapeCasts_S32x512x32_S1x32x512x32 : S32x512x32.ShapeCasts S1x32x512x32
  gather_S8x512x512x32_S8x512x512x3_S8x512x512x32_3_012_n_n_012_3_11132_wf : GatherDims.WF S8x512x512x32 S8x512x512x3 S8x512x512x32 [3] [0, 1, 2] [] [0, 1, 2] [] 3 ![1, 1, 1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512x32.size a ≤ S8x512x512x32.size a
  hwx0_0 : ∀ i : grid0.Coords, EltTy.bits .f32 = 32 ∨ (Rect.block (s := S8x512x512x32) S1x32x512x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x512x32.size a ≤ S8x512x512x32.size a
  hwx0_1 : ∀ i : grid0.Coords, EltTy.bits .f32 = 32 ∨ (Rect.block (s := S8x512x512x32) S1x32x512x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x512x32.size a ≤ S8x512x512x32.size a
  hwx0_2 : ∀ i : grid0.Coords, EltTy.bits .f32 = 32 ∨ (Rect.block (s := S8x512x512x32) S1x32x512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x512x32.size a ≤ S8x512x512x32.size a
  hwx0_3 : ∀ i : grid0.Coords, EltTy.bits .f32 = 32 ∨ (Rect.block (s := S8x512x512x32) S1x32x512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x512.size a ≤ S8x512x512.size a
  hwx0_4 : ∀ i : grid0.Coords, EltTy.bits .f32 = 32 ∨ (Rect.block (s := S8x512x512) S1x32x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x512.size a ≤ S8x512x512.size a
  hwx0_5 : ∀ i : grid0.Coords, EltTy.bits .f32 = 32 ∨ (Rect.block (s := S8x512x512) S1x32x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x32x512.size a ≤ S8x512x512.size a
  hwx0_6 : ∀ i : grid0.Coords, EltTy.bits .f32 = 32 ∨ (Rect.block (s := S8x512x512) S1x32x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x512.size a ≤ S8x512x512.size a
  hwx0_7 : ∀ i : grid0.Coords, EltTy.bits .f32 = 32 ∨ (Rect.block (s := S8x512x512) S1x32x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x32x512x32.size a ≤ S8x512x512x32.size a
  hwx0_8 : ∀ i : grid0.Coords, EltTy.bits .f32 = 32 ∨ (Rect.block (s := S8x512x512x32) S1x32x512x32.size (cc0_transform_8 i) (hinb0_8 i)).WholeWords (EltTy.packing .f32)

variable [Facts₀]

def gather_S8x512x512x32_S8x512x512x3_S8x512x512x32_3_012_n_n_012_3_11132 : GatherDims S8x512x512x32 S8x512x512x3 S8x512x512x32 where
  offsetDims := [3]
  collapsedSliceDims := [0, 1, 2]
  operandBatchingDims := []
  startIndicesBatchingDims := []
  startIndexMap := [0, 1, 2]
  indexVectorDim := 3
  sliceSizes := ![1, 1, 1, 32]
  wf := gather_S8x512x512x32_S8x512x512x3_S8x512x512x32_3_012_n_n_012_3_11132_wf

abbrev win0_0 : Pipeline.Window sig grid0 :=
  Pipeline.Window.ofSpec (Memref.whole main_v50) S1x32x512x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v71) S1x32x512x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v92) S1x32x512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v113) S1x32x512x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v120) S1x32x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v123) S1x32x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v126) S1x32x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v129) S1x32x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v130) S1x32x512x32.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S8x512x512x32 : Shape := ⟨4, ![8, 512, 512, 32]⟩
abbrev S8x512x512x2 : Shape := ⟨4, ![8, 512, 512, 2]⟩
abbrev S8x512x512x1 : Shape := ⟨4, ![8, 512, 512, 1]⟩
abbrev S8x512x512 : Shape := ⟨3, ![8, 512, 512]⟩
abbrev S_ : Shape := ⟨0, ![]⟩
abbrev S8 : Shape := ⟨1, ![8]⟩
abbrev S8x1x1 : Shape := ⟨3, ![8, 1, 1]⟩
abbrev S8x512x512x3 : Shape := ⟨4, ![8, 512, 512, 3]⟩

abbrev nBuf : Space → Nat
  | .hbm => 207
  | .vmem => 0
  | .smem => 0
  | _ => 0

abbrev hbmTy0_0 (i : Nat) : BufTy := match i % 128 with
  | 0 => ⟨S8x512x512x32, .f32⟩
  | 1 => ⟨S8x512x512x2, .f32⟩
  | 2 => ⟨S8x512x512x1, .f32⟩
  | 3 => ⟨S8x512x512, .f32⟩
  | 4 => ⟨S_, .f32⟩
  | 5 => ⟨S8x512x512, .f32⟩
  | 6 => ⟨S8x512x512, .f32⟩
  | 7 => ⟨S_, .f32⟩
  | 8 => ⟨S8x512x512, .f32⟩
  | 9 => ⟨S8x512x512, .f32⟩
  | 10 => ⟨S_, .f32⟩
  | 11 => ⟨S8x512x512, .f32⟩
  | 12 => ⟨S8x512x512, .f32⟩
  | 13 => ⟨S8x512x512x1, .f32⟩
  | 14 => ⟨S8x512x512, .f32⟩
  | 15 => ⟨S_, .f32⟩
  | 16 => ⟨S8x512x512, .f32⟩
  | 17 => ⟨S8x512x512, .f32⟩
  | 18 => ⟨S_, .f32⟩
  | 19 => ⟨S8x512x512, .f32⟩
  | 20 => ⟨S8x512x512, .f32⟩
  | 21 => ⟨S_, .f32⟩
  | 22 => ⟨S8x512x512, .f32⟩
  | 23 => ⟨S8x512x512, .f32⟩
  | 24 => ⟨S8x512x512, .f32⟩
  | 25 => ⟨S8x512x512, .i32⟩
  | 26 => ⟨S_, .i32⟩
  | 27 => ⟨S8x512x512, .i32⟩
  | 28 => ⟨S8x512x512, .i32⟩
  | 29 => ⟨S8x512x512, .f32⟩
  | 30 => ⟨S8x512x512, .i32⟩
  | 31 => ⟨S_, .i32⟩
  | 32 => ⟨S8x512x512, .i32⟩
  | 33 => ⟨S8x512x512, .i32⟩
  | 34 => ⟨S_, .i32⟩
  | 35 => ⟨S_, .i32⟩
  | 36 => ⟨S_, .i32⟩
  | 37 => ⟨S8x512x512, .i32⟩
  | 38 => ⟨S8x512x512, .i32⟩
  | 39 => ⟨S_, .i32⟩
  | 40 => ⟨S8x512x512, .i32⟩
  | 41 => ⟨S8x512x512, .i32⟩
  | 42 => ⟨S_, .i32⟩
  | 43 => ⟨S_, .i32⟩
  | 44 => ⟨S_, .i32⟩
  | 45 => ⟨S8x512x512, .i32⟩
  | 46 => ⟨S8x512x512, .i32⟩
  | 47 => ⟨S_, .i32⟩
  | 48 => ⟨S8x512x512, .i32⟩
  | 49 => ⟨S8x512x512, .i32⟩
  | 50 => ⟨S_, .i32⟩
  | 51 => ⟨S_, .i32⟩
  | 52 => ⟨S_, .i32⟩
  | 53 => ⟨S8x512x512, .i32⟩
  | 54 => ⟨S8x512x512, .i32⟩
  | 55 => ⟨S_, .i32⟩
  | 56 => ⟨S8x512x512, .i32⟩
  | 57 => ⟨S8x512x512, .i32⟩
  | 58 => ⟨S_, .i32⟩
  | 59 => ⟨S_, .i32⟩
  | 60 => ⟨S_, .i32⟩
  | 61 => ⟨S8x512x512, .i32⟩
  | 62 => ⟨S8x512x512, .i32⟩
  | 63 => ⟨S_, .i32⟩
  | 64 => ⟨S8x512x512, .i32⟩
  | 65 => ⟨S8x512x512, .i32⟩
  | 66 => ⟨S8, .i32⟩
  | 67 => ⟨S8x1x1, .i32⟩
  | 68 => ⟨S_, .i32⟩
  | 69 => ⟨S8x1x1, .i32⟩
  | 70 => ⟨S8x1x1, .i1⟩
  | 71 => ⟨S_, .i32⟩
  | 72 => ⟨S8x1x1, .i32⟩
  | 73 => ⟨S8x1x1, .i32⟩
  | 74 => ⟨S8x1x1, .i32⟩
  | 75 => ⟨S_, .i32⟩
  | 76 => ⟨S8x512x512, .i32⟩
  | 77 => ⟨S8x512x512, .i1⟩
  | 78 => ⟨S_, .i32⟩
  | 79 => ⟨S8x512x512, .i32⟩
  | 80 => ⟨S8x512x512, .i32⟩
  | 81 => ⟨S8x512x512, .i32⟩
  | 82 => ⟨S_, .i32⟩
  | 83 => ⟨S8x512x512, .i32⟩
  | 84 => ⟨S8x512x512, .i1⟩
  | 85 => ⟨S_, .i32⟩
  | 86 => ⟨S8x512x512, .i32⟩
  | 87 => ⟨S8x512x512, .i32⟩
  | 88 => ⟨S8x512x512, .i32⟩
  | 89 => ⟨S8x512x512, .i32⟩
  | 90 => ⟨S8x512x512x1, .i32⟩
  | 91 => ⟨S8x512x512x1, .i32⟩
  | 92 => ⟨S8x512x512x1, .i32⟩
  | 93 => ⟨S8x512x512x3, .i32⟩
  | 94 => ⟨S8x512x512x32, .f32⟩
  | 95 => ⟨S_, .i32⟩
  | 96 => ⟨S8x1x1, .i32⟩
  | 97 => ⟨S8x1x1, .i1⟩
  | 98 => ⟨S_, .i32⟩
  | 99 => ⟨S8x1x1, .i32⟩
  | 100 => ⟨S8x1x1, .i32⟩
  | 101 => ⟨S8x1x1, .i32⟩
  | 102 => ⟨S_, .i32⟩
  | 103 => ⟨S8x512x512, .i32⟩
  | 104 => ⟨S8x512x512, .i1⟩
  | 105 => ⟨S_, .i32⟩
  | 106 => ⟨S8x512x512, .i32⟩
  | 107 => ⟨S8x512x512, .i32⟩
  | 108 => ⟨S8x512x512, .i32⟩
  | 109 => ⟨S_, .i32⟩
  | 110 => ⟨S8x512x512, .i32⟩
  | 111 => ⟨S8x512x512, .i1⟩
  | 112 => ⟨S_, .i32⟩
  | 113 => ⟨S8x512x512, .i32⟩
  | 114 => ⟨S8x512x512, .i32⟩
  | 115 => ⟨S8x512x512, .i32⟩
  | 116 => ⟨S8x512x512, .i32⟩
  | 117 => ⟨S8x512x512x1, .i32⟩
  | 118 => ⟨S8x512x512x1, .i32⟩
  | 119 => ⟨S8x512x512x1, .i32⟩
  | 120 => ⟨S8x512x512x3, .i32⟩
  | 121 => ⟨S8x512x512x32, .f32⟩
  | 122 => ⟨S_, .i32⟩
  | 123 => ⟨S8x1x1, .i32⟩
  | 124 => ⟨S8x1x1, .i1⟩
  | 125 => ⟨S_, .i32⟩
  | 126 => ⟨S8x1x1, .i32⟩
  | 127 => ⟨S8x1x1, .i32⟩
  | _ => ⟨S8x512x512x32, .f32⟩

abbrev hbmTy0_1 (i : Nat) : BufTy := match i % 128 with
  | 0 => ⟨S8x1x1, .i32⟩
  | 1 => ⟨S_, .i32⟩
  | 2 => ⟨S8x512x512, .i32⟩
  | 3 => ⟨S8x512x512, .i1⟩
  | 4 => ⟨S_, .i32⟩
  | 5 => ⟨S8x512x512, .i32⟩
  | 6 => ⟨S8x512x512, .i32⟩
  | 7 => ⟨S8x512x512, .i32⟩
  | 8 => ⟨S_, .i32⟩
  | 9 => ⟨S8x512x512, .i32⟩
  | 10 => ⟨S8x512x512, .i1⟩
  | 11 => ⟨S_, .i32⟩
  | 12 => ⟨S8x512x512, .i32⟩
  | 13 => ⟨S8x512x512, .i32⟩
  | 14 => ⟨S8x512x512, .i32⟩
  | 15 => ⟨S8x512x512, .i32⟩
  | 16 => ⟨S8x512x512x1, .i32⟩
  | 17 => ⟨S8x512x512x1, .i32⟩
  | 18 => ⟨S8x512x512x1, .i32⟩
  | 19 => ⟨S8x512x512x3, .i32⟩
  | 20 => ⟨S8x512x512x32, .f32⟩
  | 21 => ⟨S_, .i32⟩
  | 22 => ⟨S8x1x1, .i32⟩
  | 23 => ⟨S8x1x1, .i1⟩
  | 24 => ⟨S_, .i32⟩
  | 25 => ⟨S8x1x1, .i32⟩
  | 26 => ⟨S8x1x1, .i32⟩
  | 27 => ⟨S8x1x1, .i32⟩
  | 28 => ⟨S_, .i32⟩
  | 29 => ⟨S8x512x512, .i32⟩
  | 30 => ⟨S8x512x512, .i1⟩
  | 31 => ⟨S_, .i32⟩
  | 32 => ⟨S8x512x512, .i32⟩
  | 33 => ⟨S8x512x512, .i32⟩
  | 34 => ⟨S8x512x512, .i32⟩
  | 35 => ⟨S_, .i32⟩
  | 36 => ⟨S8x512x512, .i32⟩
  | 37 => ⟨S8x512x512, .i1⟩
  | 38 => ⟨S_, .i32⟩
  | 39 => ⟨S8x512x512, .i32⟩
  | 40 => ⟨S8x512x512, .i32⟩
  | 41 => ⟨S8x512x512, .i32⟩
  | 42 => ⟨S8x512x512, .i32⟩
  | 43 => ⟨S8x512x512x1, .i32⟩
  | 44 => ⟨S8x512x512x1, .i32⟩
  | 45 => ⟨S8x512x512x1, .i32⟩
  | 46 => ⟨S8x512x512x3, .i32⟩
  | 47 => ⟨S8x512x512x32, .f32⟩
  | 48 => ⟨S8x512x512, .f32⟩
  | 49 => ⟨S8x512x512, .f32⟩
  | 50 => ⟨S8x512x512, .f32⟩
  | 51 => ⟨S8x512x512, .f32⟩
  | 52 => ⟨S8x512x512, .f32⟩
  | 53 => ⟨S8x512x512, .f32⟩
  | 54 => ⟨S8x512x512, .f32⟩
  | 55 => ⟨S8x512x512x1, .f32⟩
  | 56 => ⟨S8x512x512, .f32⟩
  | 57 => ⟨S8x512x512, .f32⟩
  | 58 => ⟨S8x512x512, .f32⟩
  | 59 => ⟨S8x512x512x1, .f32⟩
  | 60 => ⟨S8x512x512, .f32⟩
  | 61 => ⟨S8x512x512, .f32⟩
  | 62 => ⟨S8x512x512, .f32⟩
  | 63 => ⟨S8x512x512x1, .f32⟩
  | 64 => ⟨S8x512x512, .f32⟩
  | 65 => ⟨S8x512x512, .f32⟩
  | 66 => ⟨S8x512x512, .f32⟩
  | 67 => ⟨S8x512x512x1, .f32⟩
  | 68 => ⟨S8x512x512x32, .f32⟩
  | 69 => ⟨S8x512x512x32, .f32⟩
  | 70 => ⟨S8x512x512x32, .f32⟩
  | 71 => ⟨S8x512x512x32, .f32⟩
  | 72 => ⟨S8x512x512x32, .f32⟩
  | 73 => ⟨S8x512x512x32, .f32⟩
  | 74 => ⟨S8x512x512x32, .f32⟩
  | 75 => ⟨S8x512x512x32, .f32⟩
  | 76 => ⟨S8x512x512x32, .f32⟩
  | 77 => ⟨S8x512x512x32, .f32⟩
  | 78 => ⟨S8x512x512x32, .f32⟩
  | _ => ⟨S8x512x512x32, .f32⟩

abbrev hbmTy (i : Nat) : BufTy := match i / 128 with
  | 0 => hbmTy0_0 i
  | 1 => hbmTy0_1 i
  | _ => ⟨S8x512x512x32, .f32⟩

abbrev bufTy : (tb : Table) → Fin (tcTables nBuf tb) → BufTy
  | .hbm, ⟨i, _⟩ => hbmTy i
  | _, _ => ⟨S8x512x512x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_5 : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_c_7 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v24 : Ref sig .tc := ⟨.hbm, 41, rfl⟩
abbrev main_c_8 : Ref sig .tc := ⟨.hbm, 42, rfl⟩
abbrev main_c_9 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_v25 : Ref sig .tc := ⟨.hbm, 49, rfl⟩
abbrev main_c_10 : Ref sig .tc := ⟨.hbm, 50, rfl⟩
abbrev main_c_11 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_v26 : Ref sig .tc := ⟨.hbm, 57, rfl⟩
abbrev main_c_12 : Ref sig .tc := ⟨.hbm, 58, rfl⟩
abbrev main_c_13 : Ref sig .tc := ⟨.hbm, 59, rfl⟩
abbrev main_call3_v0 : Ref sig .tc := ⟨.hbm, 60, rfl⟩
abbrev main_call3_v1 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_c_14 : Ref sig .tc := ⟨.hbm, 68, rfl⟩
abbrev main_v30 : Ref sig .tc := ⟨.hbm, 69, rfl⟩
abbrev main_v31 : Ref sig .tc := ⟨.hbm, 70, rfl⟩
abbrev main_c_15 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_c_16 : Ref sig .tc := ⟨.hbm, 75, rfl⟩
abbrev main_v35 : Ref sig .tc := ⟨.hbm, 76, rfl⟩
abbrev main_v36 : Ref sig .tc := ⟨.hbm, 77, rfl⟩
abbrev main_c_17 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_c_18 : Ref sig .tc := ⟨.hbm, 82, rfl⟩
abbrev main_v40 : Ref sig .tc := ⟨.hbm, 83, rfl⟩
abbrev main_v41 : Ref sig .tc := ⟨.hbm, 84, rfl⟩
abbrev main_c_19 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_c_20 : Ref sig .tc := ⟨.hbm, 95, rfl⟩
abbrev main_v51 : Ref sig .tc := ⟨.hbm, 96, rfl⟩
abbrev main_v52 : Ref sig .tc := ⟨.hbm, 97, rfl⟩
abbrev main_c_21 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_c_22 : Ref sig .tc := ⟨.hbm, 102, rfl⟩
abbrev main_v56 : Ref sig .tc := ⟨.hbm, 103, rfl⟩
abbrev main_v57 : Ref sig .tc := ⟨.hbm, 104, rfl⟩
abbrev main_c_23 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_c_24 : Ref sig .tc := ⟨.hbm, 109, rfl⟩
abbrev main_v61 : Ref sig .tc := ⟨.hbm, 110, rfl⟩
abbrev main_v62 : Ref sig .tc := ⟨.hbm, 111, rfl⟩
abbrev main_c_25 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_c_26 : Ref sig .tc := ⟨.hbm, 122, rfl⟩
abbrev main_v72 : Ref sig .tc := ⟨.hbm, 123, rfl⟩
abbrev main_v73 : Ref sig .tc := ⟨.hbm, 124, rfl⟩
abbrev main_c_27 : Ref sig .tc := ⟨.hbm, 125, rfl⟩
abbrev main_v74 : Ref sig .tc := ⟨.hbm, 126, rfl⟩
abbrev main_v75 : Ref sig .tc := ⟨.hbm, 127, rfl⟩
abbrev main_v76 : Ref sig .tc := ⟨.hbm, 128, rfl⟩
abbrev main_c_28 : Ref sig .tc := ⟨.hbm, 129, rfl⟩
abbrev main_v77 : Ref sig .tc := ⟨.hbm, 130, rfl⟩
abbrev main_v78 : Ref sig .tc := ⟨.hbm, 131, rfl⟩
abbrev main_c_29 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_c_30 : Ref sig .tc := ⟨.hbm, 136, rfl⟩
abbrev main_v82 : Ref sig .tc := ⟨.hbm, 137, rfl⟩
abbrev main_v83 : Ref sig .tc := ⟨.hbm, 138, rfl⟩
abbrev main_c_31 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_c_32 : Ref sig .tc := ⟨.hbm, 149, rfl⟩
abbrev main_v93 : Ref sig .tc := ⟨.hbm, 150, rfl⟩
abbrev main_v94 : Ref sig .tc := ⟨.hbm, 151, rfl⟩
abbrev main_c_33 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_c_34 : Ref sig .tc := ⟨.hbm, 156, rfl⟩
abbrev main_v98 : Ref sig .tc := ⟨.hbm, 157, rfl⟩
abbrev main_v99 : Ref sig .tc := ⟨.hbm, 158, rfl⟩
abbrev main_c_35 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_c_36 : Ref sig .tc := ⟨.hbm, 163, rfl⟩
abbrev main_v103 : Ref sig .tc := ⟨.hbm, 164, rfl⟩
abbrev main_v104 : Ref sig .tc := ⟨.hbm, 165, rfl⟩
abbrev main_c_37 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_v133 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_v139 : Ref sig .tc := ⟨.hbm, 201, rfl⟩
abbrev main_v140 : Ref sig .tc := ⟨.hbm, 202, rfl⟩
abbrev main_v141 : Ref sig .tc := ⟨.hbm, 203, rfl⟩
abbrev main_v142 : Ref sig .tc := ⟨.hbm, 204, rfl⟩
abbrev main_v143 : Ref sig .tc := ⟨.hbm, 205, rfl⟩
abbrev main_v144 : Ref sig .tc := ⟨.hbm, 206, rfl⟩

abbrev nD : Nat := 1
abbrev τ : Topo := Topo.v7x

variable {F : FTy → Type} [FloatOps F]

class Facts₀ : Prop where
  slices_S8x512x512x2_S8x512x512x1_0_0_0_0 : S8x512x512x2.Slices ![0, 0, 0, 0] S8x512x512x1
  shapeCasts_S8x512x512x1_S8x512x512 : S8x512x512x1.ShapeCasts S8x512x512
  bcast_S_S8x512x512 : S_.BroadcastsInDim S8x512x512 (![] : Fin 0 → Fin S8x512x512.rank)
  slices_S8x512x512x2_S8x512x512x1_0_0_0_1 : S8x512x512x2.Slices ![0, 0, 0, 1] S8x512x512x1
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x512_0_1_2 : S8x1x1.BroadcastsInDim S8x512x512 (![0, 1, 2] : Fin 3 → Fin S8x512x512.rank)
  bcast_S8x512x512_S8x512x512x1_0_1_2 : S8x512x512.BroadcastsInDim S8x512x512x1 (![0, 1, 2] : Fin 3 → Fin S8x512x512x1.rank)
  concatenates_S8x512x512x1_S8x512x512x1_S8x512x512x1_S8x512x512x3_d3 : Shape.Concatenates [S8x512x512x1, S8x512x512x1, S8x512x512x1] S8x512x512x3 3
  bcast_S8x512x512x1_S8x512x512x32_0_1_2_3 : S8x512x512x1.BroadcastsInDim S8x512x512x32 (![0, 1, 2, 3] : Fin 4 → Fin S8x512x512x32.rank)
  gather_S8x512x512x32_S8x512x512x3_S8x512x512x32_3_012_n_n_012_3_11132_wf : GatherDims.WF S8x512x512x32 S8x512x512x3 S8x512x512x32 [3] [0, 1, 2] [] [0, 1, 2] [] 3 ![1, 1, 1, 32]

variable [Facts₀]

def gather_S8x512x512x32_S8x512x512x3_S8x512x512x32_3_012_n_n_012_3_11132 : GatherDims S8x512x512x32 S8x512x512x3 S8x512x512x32 where
  offsetDims := [3]
  collapsedSliceDims := [0, 1, 2]
  operandBatchingDims := []
  startIndicesBatchingDims := []
  startIndexMap := [0, 1, 2]
  indexVectorDim := 3
  sliceSizes := ![1, 1, 1, 32]
  wf := gather_S8x512x512x32_S8x512x512x3_S8x512x512x32_3_012_n_n_012_3_11132_wf

class Facts : Prop extends Facts₀ where

variable [Facts]
-- ==== Proof.FrameIdealHost.lean ====
/-
  @main before its one region: nine stretches of host operations (the pixel coordinates from the sampling grid, their
  floors and clamped neighbours, the four corner gathers of the image and the four bilinear weights), 170 operations
  in all, none of which allocates a buffer afresh and none of which writes an argument array. So the region is
  entered with every buffer at the fold of those operations over the launch contents, and with both argument arrays
  as launched.
-/
import proofs.«163026_j86775519248465_1_alg».proof.Proof.Gen.KernelIdeal.Launch
import Idealize.ShloMosaic.Lib.Pipeline.FrameBody

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core `c`'s TensorCore buffers when the region is entered: the launch contents after the nine host stretches. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
set_option maxHeartbeats 40000000 in
theorem hostOps0_8_fresh : (hostOps0_8 : List (HloOp τ sig (Elt F))).Forall fun op => op.fresh = ∅ := by
  simp only [List.Forall]; repeat' constructor

/-- @main is those nine stretches and then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8] (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

set_option maxHeartbeats 40000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))
set_option maxHeartbeats 40000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.nary_writes, Finset.mem_singleton]
    repeat' apply And.intro
    all_goals exact StableHlo.devRef_ne_of_ne (by decide)))

end Cert.KernelIdeal.Frm

end
-- ==== Proof.FrameIdealBody.lean ====
/-
  The weighted-sum body on whole staging buffers. Each grid point holds one batch entry's band of 32 rows: four
  gathered image bands of shape 1×32×512×32 and four weight bands of shape 1×32×512. The body reads all eight whole,
  reads the output band once (the value is not used), and stores ONE value over the whole output band:
  ((w₄·a₀ + w₅·a₁) + w₆·a₂) + w₇·a₃, each weight repeated along the channel axis. So after the body the output band
  is that single piece, and the eight input bands are as they were.
-/
import proofs.«163026_j86775519248465_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The whole weight band. -/
abbrev rW : Rect S1x32x512 := Rect.unit (s := S1x32x512) ![0, 0, 0] S1x32x512.size inb_S1x32x512_S1x32x512_0_0_0
/-- The whole image band (also the output band). -/
abbrev rI : Rect S1x32x512x32 := Rect.unit (s := S1x32x512x32) ![0, 0, 0, 0] S1x32x512x32.size inb_S1x32x512x32_S1x32x512x32_0_0_0_0

/-- The output band after the body, from the eight input bands: the one stored value, as the single piece that
    covers the band. -/
def outBand (x0 : Vec F S1x32x512x32 .f32) (x1 : Vec F S1x32x512x32 .f32) (x2 : Vec F S1x32x512x32 .f32) (x3 : Vec F S1x32x512x32 .f32) (x4 : Vec F S1x32x512 .f32) (x5 : Vec F S1x32x512 .f32) (x6 : Vec F S1x32x512 .f32) (x7 : Vec F S1x32x512 .f32) : Vec F S1x32x512x32 .f32 :=
  View.canon [⟨rI, k0_pay1 (k0_pay2 (View.ld x4 rW) (View.ld x5 rW) (View.ld x6 rW) (View.ld x0 rI) (View.ld x1 rI) (View.ld x2 rI)) (k0_pay3 (View.ld x7 rW) (View.ld x3 rI))⟩]

/-- The one store covers the band: its rectangle is the whole band. -/
theorem outBand_cover (p0 : Vec F S1x32x512x32 .f32) (y : S1x32x512x32.Idx) :
    ∃ pc ∈ ([⟨rI, p0⟩] : List (View.Piece (Elt F) S1x32x512x32 .f32)), y ∈ pc.1.set :=
  View.cover_of_tiled [⟨rI, p0⟩] S1x32x512x32.size (by rfl) y

set_option maxHeartbeats 1000000 in
/-- The body's triple: from the eight input bands at read contents and the output band at anything, it runs to the
    continuation with the inputs as they were and the output band at `outBand` of them. -/
theorem sound_kernel (c : Dev nD) (E : Set ℕ) (i : grid0.Coords) (arg2 : Memref sig .tc .vmem S1x32x512x32 .f32) (harg2 : arg2.IsWhole) (arg3 : Memref sig .tc .vmem S1x32x512x32 .f32) (harg3 : arg3.IsWhole) (arg4 : Memref sig .tc .vmem S1x32x512x32 .f32) (harg4 : arg4.IsWhole) (arg5 : Memref sig .tc .vmem S1x32x512x32 .f32) (harg5 : arg5.IsWhole) (arg6 : Memref sig .tc .vmem S1x32x512 .f32) (harg6 : arg6.IsWhole) (arg7 : Memref sig .tc .vmem S1x32x512 .f32) (harg7 : arg7.IsWhole) (arg8 : Memref sig .tc .vmem S1x32x512 .f32) (harg8 : arg8.IsWhole) (arg9 : Memref sig .tc .vmem S1x32x512 .f32) (harg9 : arg9.IsWhole) (arg10 : Memref sig .tc .vmem S1x32x512x32 .f32) (harg10 : arg10.IsWhole)
    (x0 : Vec F S1x32x512x32 .f32) (x1 : Vec F S1x32x512x32 .f32) (x2 : Vec F S1x32x512x32 .f32) (x3 : Vec F S1x32x512x32 .f32) (x4 : Vec F S1x32x512 .f32) (x5 : Vec F S1x32x512 .f32) (x6 : Vec F S1x32x512 .f32) (x7 : Vec F S1x32x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (outBand x0 x1 x2 x3 x4 x5 x6 x7)) -∗ K ⟨⟩))
      ⊢ wp frame (wpE (defs₀ (F := F)) Variants.none c none) E (cc0__wsum_kernel i arg2 harg2 arg3 harg3 arg4 harg4 arg5 harg5 arg6 harg6 arg7 harg7 arg8 harg8 arg9 harg9 arg10 harg10) K := by
  simp only [cc0__wsum_kernel_eq_skeleton]; unfold cc0__wsum_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (outBand_cover _)

end Cert.KernelIdeal.Frm

end
-- ==== Proof.FrameIdeal.lean ====
/-
  The run of the weighted-sum program and its frame. The region's proof data: every array at what the host prefix
  left (`V`); after the body at point `t` each of the eight input bands still at its block of its array, and the output
  band at the one stored value of those eight blocks; nothing owed, full shares. Each input band is fetched at every
  point, so before the body it holds its block; the body's triple then gives the obligation at every point, and the
  library's frame run gives the run. Neither argument array is staged by a window: both end as launched.
-/
import proofs.«163026_j86775519248465_1_alg».proof.Proof.FrameIdealHost
import proofs.«163026_j86775519248465_1_alg».proof.Proof.FrameIdealBody
import proofs.«163026_j86775519248465_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, for any proof data whose array is
    `V`'s and whose body leaves the block in place: the window is fetched at every point, uncut and never idle. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_in6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_in7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The frame claim's post from a frame run: neither argument array is a window's array, so each is among the other
    unscoped buffers, which end as the region found them, and the host prefix writes neither. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) h

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => outBand (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = outBand (iblk m c 0 t) (iblk m c 1 t) (iblk m c 2 t) (iblk m c 3 t) (iblk m c 4 t) (iblk m c 5 t) (iblk m c 6 t) (iblk m c 7 t) := by dsimp only [dats]

theorem before0 (c : Dev nD) (t : Fin cfg0.N) (d) : (dats m 0 c).before 0 t d = iblk m c 0 t :=
  before_in0_of m (dats m 0 c) (A_eq m c 0) (after0 m c) t d
theorem before1 (c : Dev nD) (t : Fin cfg0.N) (d) : (dats m 0 c).before 1 t d = iblk m c 1 t :=
  before_in1_of m (dats m 0 c) (A_eq m c 1) (after1 m c) t d
theorem before2 (c : Dev nD) (t : Fin cfg0.N) (d) : (dats m 0 c).before 2 t d = iblk m c 2 t :=
  before_in2_of m (dats m 0 c) (A_eq m c 2) (after2 m c) t d
theorem before3 (c : Dev nD) (t : Fin cfg0.N) (d) : (dats m 0 c).before 3 t d = iblk m c 3 t :=
  before_in3_of m (dats m 0 c) (A_eq m c 3) (after3 m c) t d
theorem before4 (c : Dev nD) (t : Fin cfg0.N) (d) : (dats m 0 c).before 4 t d = iblk m c 4 t :=
  before_in4_of m (dats m 0 c) (A_eq m c 4) (after4 m c) t d
theorem before5 (c : Dev nD) (t : Fin cfg0.N) (d) : (dats m 0 c).before 5 t d = iblk m c 5 t :=
  before_in5_of m (dats m 0 c) (A_eq m c 5) (after5 m c) t d
theorem before6 (c : Dev nD) (t : Fin cfg0.N) (d) : (dats m 0 c).before 6 t d = iblk m c 6 t :=
  before_in6_of m (dats m 0 c) (A_eq m c 6) (after6 m c) t d
theorem before7 (c : Dev nD) (t : Fin cfg0.N) (d) : (dats m 0 c).before 7 t d = iblk m c 7 t :=
  before_in7_of m (dats m 0 c) (A_eq m c 7) (after7 m c) t d

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: the inputs' buffers hold their blocks, so the body's triple applies; the invariant and
    the core's debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ (grid0.coords t) _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The library's body obligation, at every point. -/
theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of @main terminates, with every array of the pipeline at what the library computes
    from the proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Frm

end
-- ==== Proof.Spec.lean ====
/-
  Bilinear sampling, last stage: the weighted sum of the four gathered corner images. Over a batch of 8 images of
  512 × 512 pixels and 32 channels, the result at pixel (b, y, x) and channel ch is

      ((wa·Ia + wb·Ib) + wc·Ic) + wd·Id,

  where each corner image is read at (b, y, x, ch) and each weight at the pixel (b, y, x): a weight does not depend on
  the channel. Sums and products are those of the extended reals, grouped exactly so.
-/
import Idealize.ShloMosaic.PureOps.Ideal
import Idealize.ShloMosaic.Lib.ValueIdx

noncomputable section

namespace Cert.Bilinear

open Idealize.ShloMosaic Idealize.ShloMosaic.ValueIdx

/-- A batch of images: batch, row, column, channel. -/
abbrev SImg : Shape := ⟨4, ![8, 512, 512, 32]⟩
/-- A batch of per-pixel weights: batch, row, column. -/
abbrev SPix : Shape := ⟨3, ![8, 512, 512]⟩

/-- The pixel an image entry belongs to: its index without the channel. -/
def pixel (i : SImg.Idx) : SPix.Idx := ix3 (n0 := 8) (n1 := 512) (n2 := 512) (i 0) (i 1) (i 2)

theorem pixel_ix4 (b : Fin 8) (y x : Fin 512) (ch : Fin 32) : pixel (ix4 b y x ch) = ix3 b y x := rfl

/-- The weighted sum of the four corner images, entry by entry. -/
def combine (ia ib ic id : SImg.Idx → EReal) (wa wb wc wd : SPix.Idx → EReal) : SImg.Idx → EReal :=
  fun i => ((wa (pixel i) * ia i + wb (pixel i) * ib i) + wc (pixel i) * ic i) + wd (pixel i) * id i

theorem combine_apply (ia ib ic id : SImg.Idx → EReal) (wa wb wc wd : SPix.Idx → EReal) (i : SImg.Idx) :
    combine ia ib ic id wa wb wc wd i
      = ((wa (pixel i) * ia i + wb (pixel i) * ib i) + wc (pixel i) * ic i) + wd (pixel i) * id i := rfl

end Cert.Bilinear

end
-- ==== Proof.BandValue.lean ====
/-
  One band of the weighted sum, entry by entry, at the exact reals. The stored value at entry (0, r, x, ch) of the
  output band is ((w₄·a₀ + w₅·a₁) + w₆·a₂) + w₇·a₃, the four image bands read at (0, r, x, ch) and the four weight
  bands at (0, r, x): a weight band of shape 1×32×512 is reshaped to 32×512, then to a column 32×512×1, and repeated
  along the channel axis, so its value at (r, x, ch) does not depend on ch.
-/
import proofs.«163026_j86775519248465_1_alg».proof.Proof.Gen.KernelIdeal.Skeleton
import proofs.«163026_j86775519248465_1_alg».proof.Proof.Spec
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.Bilinear Idealize.ShloMosaic.ValueIdx

theorem hz4 : (![0, 0, 0, 0] : Fin 4 → Nat) = fun _ => 0 := funext fun a => by fin_cases a <;> rfl
theorem hz3 : (![0, 0, 0] : Fin 3 → Nat) = fun _ => 0 := funext fun a => by fin_cases a <;> rfl

/-- A weight band reshaped to a column and repeated along the channel axis reads the weight of the pixel. -/
theorem weight_repeat (v : Vec Ideal S1x32x512 .f32) (r : Fin 32) (x : Fin 512) (ch : Fin 32) :
    broadcastTo S32x512x32 (shapeCast S32x512x1 (shapeCast S32x512 v shapeCasts_S1x32x512_S32x512) shapeCasts_S32x512_S32x512x1)
      broadcasts_S32x512x1_S32x512x32 (ix3 r x ch) = v (ix3 (0 : Fin 1) r x) := by
  rw [broadcastTo_apply _ broadcasts_S32x512x1_S32x512x32 (ix3 r x ch) (ix3 r x (0 : Fin 1)) (fun a => match a with
    | ⟨0, _⟩ => by show r.val = if (32 : Nat) = 1 then 0 else r.val; rw [if_neg (by decide)]
    | ⟨1, _⟩ => by show x.val = if (512 : Nat) = 1 then 0 else x.val; rw [if_neg (by decide)]
    | ⟨2, _⟩ => by show 0 = if (1 : Nat) = 1 then 0 else ch.val; rw [if_pos rfl])]
  rw [shapeCast_apply _ shapeCasts_S32x512_S32x512x1 (ix3 r x (0 : Fin 1)) (ix2 r x) (by
    rw [Shape.rowMajor_val_two, Shape.rowMajor_val_three]
    show r.val * 512 + x.val = (r.val * 512 + x.val) * 1 + 0
    omega)]
  exact shapeCast_1ab_ab_apply v shapeCasts_S1x32x512_S32x512 r x

/-- An image band without its unit axis reads the band. -/
theorem image_band (v : Vec Ideal S1x32x512x32 .f32) (r : Fin 32) (x : Fin 512) (ch : Fin 32) :
    shapeCast S32x512x32 v shapeCasts_S1x32x512x32_S32x512x32 (ix3 r x ch) = v (ix4 (0 : Fin 1) r x ch) :=
  shapeCast_1abc_abc_apply v shapeCasts_S1x32x512x32_S32x512x32 r x ch

/-- The stored value at an entry of the band, from the eight input bands. -/
theorem stored_apply (a0 a1 a2 a3 : Vec Ideal S1x32x512x32 .f32) (w4 w5 w6 w7 : Vec Ideal S1x32x512 .f32)
    (u : Fin 1) (r : Fin 32) (x : Fin 512) (ch : Fin 32) :
    k0_pay1 (k0_pay2 w4 w5 w6 a0 a1 a2) (k0_pay3 w7 a3) (ix4 u r x ch)
      = ((w4 (ix3 (0 : Fin 1) r x) * a0 (ix4 (0 : Fin 1) r x ch) + w5 (ix3 (0 : Fin 1) r x) * a1 (ix4 (0 : Fin 1) r x ch))
          + w6 (ix3 (0 : Fin 1) r x) * a2 (ix4 (0 : Fin 1) r x ch)) + w7 (ix3 (0 : Fin 1) r x) * a3 (ix4 (0 : Fin 1) r x ch) := by
  unfold k0_pay1 k0_pay2 k0_pay3
  rw [shapeCast_abc_1abc_apply _ shapeCasts_S32x512x32_S1x32x512x32 u r x ch]
  simp only [addf_apply, mulf_apply]
  rw [weight_repeat w4, weight_repeat w5, weight_repeat w6, weight_repeat w7,
    image_band a0, image_band a1, image_band a2, image_band a3]

/-- A band against the whole arrays: if `e` places the output band in the result array, each image band holds its
    array's entries at `e`, and each weight band holds its array's entries at the pixels of `e`, then the stored
    value at every entry of the band is the weighted sum of the eight arrays at `e` of that entry. -/
theorem band_eq (A0 A1 A2 A3 : SImg.Idx → EReal) (W4 W5 W6 W7 : SPix.Idx → EReal)
    (a0 a1 a2 a3 : Vec Ideal S1x32x512x32 .f32) (w4 w5 w6 w7 : Vec Ideal S1x32x512 .f32)
    (e : S1x32x512x32.Idx → SImg.Idx)
    (h0 : ∀ r x ch, a0 (ix4 (0 : Fin 1) r x ch) = A0 (e (ix4 (0 : Fin 1) r x ch)))
    (h1 : ∀ r x ch, a1 (ix4 (0 : Fin 1) r x ch) = A1 (e (ix4 (0 : Fin 1) r x ch)))
    (h2 : ∀ r x ch, a2 (ix4 (0 : Fin 1) r x ch) = A2 (e (ix4 (0 : Fin 1) r x ch)))
    (h3 : ∀ r x ch, a3 (ix4 (0 : Fin 1) r x ch) = A3 (e (ix4 (0 : Fin 1) r x ch)))
    (h4 : ∀ r x ch, w4 (ix3 (0 : Fin 1) r x) = W4 (pixel (e (ix4 (0 : Fin 1) r x ch))))
    (h5 : ∀ r x ch, w5 (ix3 (0 : Fin 1) r x) = W5 (pixel (e (ix4 (0 : Fin 1) r x ch))))
    (h6 : ∀ r x ch, w6 (ix3 (0 : Fin 1) r x) = W6 (pixel (e (ix4 (0 : Fin 1) r x ch))))
    (h7 : ∀ r x ch, w7 (ix3 (0 : Fin 1) r x) = W7 (pixel (e (ix4 (0 : Fin 1) r x ch))))
    (y : S1x32x512x32.Idx) :
    k0_pay1 (k0_pay2 w4 w5 w6 a0 a1 a2) (k0_pay3 w7 a3) y = combine A0 A1 A2 A3 W4 W5 W6 W7 (e y) := by
  obtain ⟨u, r, x, ch, rfl⟩ : ∃ (u : Fin 1) (r : Fin 32) (x : Fin 512) (ch : Fin 32), y = ix4 u r x ch :=
    ⟨y 0, y 1, y 2, y 3, eq_ix4 y⟩
  obtain rfl : u = 0 := Subsingleton.elim _ _
  rw [stored_apply, combine_apply, h0 r x ch, h1 r x ch, h2 r x ch, h3 r x ch, h4 r x ch, h5 r x ch, h6 r x ch, h7 r x ch]

end Cert.KernelIdeal.Val

end
-- ==== Proof.ValueIdeal.lean ====
/-
  What the weighted-sum region leaves in its result array, at the exact reals. At grid point (b, h) every window's
  block index is (b, h, 0, …): the region works on batch entry b and the band of rows 32·h … 32·h + 31, so entry
  (0, r, x, ch) of a band is entry (b, 32·h + r, x, ch) of its array and entry (0, r, x) of a weight band is the pixel
  (b, 32·h + r, x). What a point writes back is therefore its block of the weighted sum of the eight arrays the region
  found, and the 8 × 16 bands tile the result array: it ends as that weighted sum, entry by entry.
-/
import proofs.«163026_j86775519248465_1_alg».proof.Proof.FrameIdeal
import proofs.«163026_j86775519248465_1_alg».proof.Proof.BandValue
import proofs.«163026_j86775519248465_1_alg».proof.Proof.Spec
import Idealize.ShloMosaic.Lib.Pipeline.Value
import Idealize.ShloMosaic.Lib.ValueIdx

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Cert.KernelIdeal.Frm Cert.Bilinear Idealize.ShloMosaic.ValueIdx

variable (m : (ℓ : Loc nD τ sig) → Buf (Elt Ideal) ℓ) (ρ : Dev nD → PrngReg)

/-- The printed index maps, decided over the grid: every input window moves with the output window, axis by axis. -/
theorem idx_facts : ∀ t : Fin cfg0.N, win0_0.index t (0 : Fin 4) = win0_8.index t (0 : Fin 4)
    ∧ win0_0.index t (1 : Fin 4) = win0_8.index t (1 : Fin 4)
    ∧ win0_0.index t (2 : Fin 4) = win0_8.index t (2 : Fin 4)
    ∧ win0_0.index t (3 : Fin 4) = win0_8.index t (3 : Fin 4)
    ∧ win0_1.index t (0 : Fin 4) = win0_8.index t (0 : Fin 4)
    ∧ win0_1.index t (1 : Fin 4) = win0_8.index t (1 : Fin 4)
    ∧ win0_1.index t (2 : Fin 4) = win0_8.index t (2 : Fin 4)
    ∧ win0_1.index t (3 : Fin 4) = win0_8.index t (3 : Fin 4)
    ∧ win0_2.index t (0 : Fin 4) = win0_8.index t (0 : Fin 4)
    ∧ win0_2.index t (1 : Fin 4) = win0_8.index t (1 : Fin 4)
    ∧ win0_2.index t (2 : Fin 4) = win0_8.index t (2 : Fin 4)
    ∧ win0_2.index t (3 : Fin 4) = win0_8.index t (3 : Fin 4)
    ∧ win0_3.index t (0 : Fin 4) = win0_8.index t (0 : Fin 4)
    ∧ win0_3.index t (1 : Fin 4) = win0_8.index t (1 : Fin 4)
    ∧ win0_3.index t (2 : Fin 4) = win0_8.index t (2 : Fin 4)
    ∧ win0_3.index t (3 : Fin 4) = win0_8.index t (3 : Fin 4)
    ∧ win0_4.index t (0 : Fin 3) = win0_8.index t (0 : Fin 4)
    ∧ win0_4.index t (1 : Fin 3) = win0_8.index t (1 : Fin 4)
    ∧ win0_4.index t (2 : Fin 3) = win0_8.index t (2 : Fin 4)
    ∧ win0_5.index t (0 : Fin 3) = win0_8.index t (0 : Fin 4)
    ∧ win0_5.index t (1 : Fin 3) = win0_8.index t (1 : Fin 4)
    ∧ win0_5.index t (2 : Fin 3) = win0_8.index t (2 : Fin 4)
    ∧ win0_6.index t (0 : Fin 3) = win0_8.index t (0 : Fin 4)
    ∧ win0_6.index t (1 : Fin 3) = win0_8.index t (1 : Fin 4)
    ∧ win0_6.index t (2 : Fin 3) = win0_8.index t (2 : Fin 4)
    ∧ win0_7.index t (0 : Fin 3) = win0_8.index t (0 : Fin 4)
    ∧ win0_7.index t (1 : Fin 3) = win0_8.index t (1 : Fin 4)
    ∧ win0_7.index t (2 : Fin 3) = win0_8.index t (2 : Fin 4) :=
  (by decide +kernel : ∀ t : Fin grid0.N, _)

/-- Every band of the result array is some point's: batch entry `q0`, rows 32·`q1` … . -/
theorem idx_onto : ∀ (q0 : Fin 8) (q1 : Fin 16), ∃ t : Fin cfg0.N, win0_8.index t = ![q0.val, q1.val, 0, 0] :=
  (by decide +kernel : ∀ (q0 : Fin 8) (q1 : Fin 16), ∃ t : Fin grid0.N, win0_8.index t = ![q0.val, q1.val, 0, 0])

set_option maxHeartbeats 4000000 in
/-- What point `t` writes back is its block of the weighted sum of the eight arrays as the region finds them. -/
theorem flushed8_eq (c : Dev nD) (t : Fin cfg0.N) :
    (dats m 0 c).flushed 8 t = ((cfg0.win 8).blk t).view.read (Elt Ideal) (combine (V m c main_v50) (V m c main_v71) (V m c main_v92) (V m c main_v113) (V m c main_v120) (V m c main_v123) (V m c main_v126) (V m c main_v129)) := by
  show (cfg0.win 8).cut (grid0.coords t) ((dats m 0 c).after 8 t) = _
  rw [after8]
  unfold outBand
  rw [View.canon_unit_zero hz4]
  simp only [View.ld_unit_zero (S := S1x32x512x32) hz4, View.ld_unit_zero (S := S1x32x512) hz3]
  obtain ⟨e0_0, e0_1, e0_2, e0_3, e1_0, e1_1, e1_2, e1_3, e2_0, e2_1, e2_2, e2_3, e3_0, e3_1, e3_2, e3_3, e4_0, e4_1, e4_2, e5_0, e5_1, e5_2, e6_0, e6_1, e6_2, e7_0, e7_1, e7_2⟩ := idx_facts t
  have hI0 : ∀ y : S1x32x512x32.Idx, ((cfg0.win 0).blk t).view.emb y = ((cfg0.win 8).blk t).view.emb y := by
    intro y; funext a; apply Fin.ext
    match a with
    | ⟨0, _⟩ => show win0_0.index t (0 : Fin 4) * 1 + 1 * (y 0).val = win0_8.index t (0 : Fin 4) * 1 + 1 * (y 0).val; omega
    | ⟨1, _⟩ => show win0_0.index t (1 : Fin 4) * 32 + 1 * (y 1).val = win0_8.index t (1 : Fin 4) * 32 + 1 * (y 1).val; omega
    | ⟨2, _⟩ => show win0_0.index t (2 : Fin 4) * 512 + 1 * (y 2).val = win0_8.index t (2 : Fin 4) * 512 + 1 * (y 2).val; omega
    | ⟨3, _⟩ => show win0_0.index t (3 : Fin 4) * 32 + 1 * (y 3).val = win0_8.index t (3 : Fin 4) * 32 + 1 * (y 3).val; omega
  have hI1 : ∀ y : S1x32x512x32.Idx, ((cfg0.win 1).blk t).view.emb y = ((cfg0.win 8).blk t).view.emb y := by
    intro y; funext a; apply Fin.ext
    match a with
    | ⟨0, _⟩ => show win0_1.index t (0 : Fin 4) * 1 + 1 * (y 0).val = win0_8.index t (0 : Fin 4) * 1 + 1 * (y 0).val; omega
    | ⟨1, _⟩ => show win0_1.index t (1 : Fin 4) * 32 + 1 * (y 1).val = win0_8.index t (1 : Fin 4) * 32 + 1 * (y 1).val; omega
    | ⟨2, _⟩ => show win0_1.index t (2 : Fin 4) * 512 + 1 * (y 2).val = win0_8.index t (2 : Fin 4) * 512 + 1 * (y 2).val; omega
    | ⟨3, _⟩ => show win0_1.index t (3 : Fin 4) * 32 + 1 * (y 3).val = win0_8.index t (3 : Fin 4) * 32 + 1 * (y 3).val; omega
  have hI2 : ∀ y : S1x32x512x32.Idx, ((cfg0.win 2).blk t).view.emb y = ((cfg0.win 8).blk t).view.emb y := by
    intro y; funext a; apply Fin.ext
    match a with
    | ⟨0, _⟩ => show win0_2.index t (0 : Fin 4) * 1 + 1 * (y 0).val = win0_8.index t (0 : Fin 4) * 1 + 1 * (y 0).val; omega
    | ⟨1, _⟩ => show win0_2.index t (1 : Fin 4) * 32 + 1 * (y 1).val = win0_8.index t (1 : Fin 4) * 32 + 1 * (y 1).val; omega
    | ⟨2, _⟩ => show win0_2.index t (2 : Fin 4) * 512 + 1 * (y 2).val = win0_8.index t (2 : Fin 4) * 512 + 1 * (y 2).val; omega
    | ⟨3, _⟩ => show win0_2.index t (3 : Fin 4) * 32 + 1 * (y 3).val = win0_8.index t (3 : Fin 4) * 32 + 1 * (y 3).val; omega
  have hI3 : ∀ y : S1x32x512x32.Idx, ((cfg0.win 3).blk t).view.emb y = ((cfg0.win 8).blk t).view.emb y := by
    intro y; funext a; apply Fin.ext
    match a with
    | ⟨0, _⟩ => show win0_3.index t (0 : Fin 4) * 1 + 1 * (y 0).val = win0_8.index t (0 : Fin 4) * 1 + 1 * (y 0).val; omega
    | ⟨1, _⟩ => show win0_3.index t (1 : Fin 4) * 32 + 1 * (y 1).val = win0_8.index t (1 : Fin 4) * 32 + 1 * (y 1).val; omega
    | ⟨2, _⟩ => show win0_3.index t (2 : Fin 4) * 512 + 1 * (y 2).val = win0_8.index t (2 : Fin 4) * 512 + 1 * (y 2).val; omega
    | ⟨3, _⟩ => show win0_3.index t (3 : Fin 4) * 32 + 1 * (y 3).val = win0_8.index t (3 : Fin 4) * 32 + 1 * (y 3).val; omega
  have hW4 : ∀ (r : Fin 32) (x : Fin 512) (ch : Fin 32), ((cfg0.win 4).blk t).view.emb (ix3 (0 : Fin 1) r x) = pixel (((cfg0.win 8).blk t).view.emb (ix4 (0 : Fin 1) r x ch)) := by
    intro r x ch; funext a; apply Fin.ext
    match a with
    | ⟨0, _⟩ => show win0_4.index t (0 : Fin 3) * 1 + 1 * 0 = win0_8.index t (0 : Fin 4) * 1 + 1 * 0; omega
    | ⟨1, _⟩ => show win0_4.index t (1 : Fin 3) * 32 + 1 * r.val = win0_8.index t (1 : Fin 4) * 32 + 1 * r.val; omega
    | ⟨2, _⟩ => show win0_4.index t (2 : Fin 3) * 512 + 1 * x.val = win0_8.index t (2 : Fin 4) * 512 + 1 * x.val; omega
  have hW5 : ∀ (r : Fin 32) (x : Fin 512) (ch : Fin 32), ((cfg0.win 5).blk t).view.emb (ix3 (0 : Fin 1) r x) = pixel (((cfg0.win 8).blk t).view.emb (ix4 (0 : Fin 1) r x ch)) := by
    intro r x ch; funext a; apply Fin.ext
    match a with
    | ⟨0, _⟩ => show win0_5.index t (0 : Fin 3) * 1 + 1 * 0 = win0_8.index t (0 : Fin 4) * 1 + 1 * 0; omega
    | ⟨1, _⟩ => show win0_5.index t (1 : Fin 3) * 32 + 1 * r.val = win0_8.index t (1 : Fin 4) * 32 + 1 * r.val; omega
    | ⟨2, _⟩ => show win0_5.index t (2 : Fin 3) * 512 + 1 * x.val = win0_8.index t (2 : Fin 4) * 512 + 1 * x.val; omega
  have hW6 : ∀ (r : Fin 32) (x : Fin 512) (ch : Fin 32), ((cfg0.win 6).blk t).view.emb (ix3 (0 : Fin 1) r x) = pixel (((cfg0.win 8).blk t).view.emb (ix4 (0 : Fin 1) r x ch)) := by
    intro r x ch; funext a; apply Fin.ext
    match a with
    | ⟨0, _⟩ => show win0_6.index t (0 : Fin 3) * 1 + 1 * 0 = win0_8.index t (0 : Fin 4) * 1 + 1 * 0; omega
    | ⟨1, _⟩ => show win0_6.index t (1 : Fin 3) * 32 + 1 * r.val = win0_8.index t (1 : Fin 4) * 32 + 1 * r.val; omega
    | ⟨2, _⟩ => show win0_6.index t (2 : Fin 3) * 512 + 1 * x.val = win0_8.index t (2 : Fin 4) * 512 + 1 * x.val; omega
  have hW7 : ∀ (r : Fin 32) (x : Fin 512) (ch : Fin 32), ((cfg0.win 7).blk t).view.emb (ix3 (0 : Fin 1) r x) = pixel (((cfg0.win 8).blk t).view.emb (ix4 (0 : Fin 1) r x ch)) := by
    intro r x ch; funext a; apply Fin.ext
    match a with
    | ⟨0, _⟩ => show win0_7.index t (0 : Fin 3) * 1 + 1 * 0 = win0_8.index t (0 : Fin 4) * 1 + 1 * 0; omega
    | ⟨1, _⟩ => show win0_7.index t (1 : Fin 3) * 32 + 1 * r.val = win0_8.index t (1 : Fin 4) * 32 + 1 * r.val; omega
    | ⟨2, _⟩ => show win0_7.index t (2 : Fin 3) * 512 + 1 * x.val = win0_8.index t (2 : Fin 4) * 512 + 1 * x.val; omega
  have h0 : ∀ (r : Fin 32) (x : Fin 512) (ch : Fin 32), iblk m c 0 t (ix4 (0 : Fin 1) r x ch) = V m c main_v50 (((cfg0.win 8).blk t).view.emb (ix4 (0 : Fin 1) r x ch)) := by
    intro r x ch
    show V m c main_v50 (((cfg0.win 0).blk t).view.emb (ix4 (0 : Fin 1) r x ch)) = _
    rw [hI0]
  have h1 : ∀ (r : Fin 32) (x : Fin 512) (ch : Fin 32), iblk m c 1 t (ix4 (0 : Fin 1) r x ch) = V m c main_v71 (((cfg0.win 8).blk t).view.emb (ix4 (0 : Fin 1) r x ch)) := by
    intro r x ch
    show V m c main_v71 (((cfg0.win 1).blk t).view.emb (ix4 (0 : Fin 1) r x ch)) = _
    rw [hI1]
  have h2 : ∀ (r : Fin 32) (x : Fin 512) (ch : Fin 32), iblk m c 2 t (ix4 (0 : Fin 1) r x ch) = V m c main_v92 (((cfg0.win 8).blk t).view.emb (ix4 (0 : Fin 1) r x ch)) := by
    intro r x ch
    show V m c main_v92 (((cfg0.win 2).blk t).view.emb (ix4 (0 : Fin 1) r x ch)) = _
    rw [hI2]
  have h3 : ∀ (r : Fin 32) (x : Fin 512) (ch : Fin 32), iblk m c 3 t (ix4 (0 : Fin 1) r x ch) = V m c main_v113 (((cfg0.win 8).blk t).view.emb (ix4 (0 : Fin 1) r x ch)) := by
    intro r x ch
    show V m c main_v113 (((cfg0.win 3).blk t).view.emb (ix4 (0 : Fin 1) r x ch)) = _
    rw [hI3]
  have h4 : ∀ (r : Fin 32) (x : Fin 512) (ch : Fin 32), iblk m c 4 t (ix3 (0 : Fin 1) r x) = V m c main_v120 (pixel (((cfg0.win 8).blk t).view.emb (ix4 (0 : Fin 1) r x ch))) := by
    intro r x ch
    show V m c main_v120 (((cfg0.win 4).blk t).view.emb (ix3 (0 : Fin 1) r x)) = _
    rw [hW4 r x ch]
  have h5 : ∀ (r : Fin 32) (x : Fin 512) (ch : Fin 32), iblk m c 5 t (ix3 (0 : Fin 1) r x) = V m c main_v123 (pixel (((cfg0.win 8).blk t).view.emb (ix4 (0 : Fin 1) r x ch))) := by
    intro r x ch
    show V m c main_v123 (((cfg0.win 5).blk t).view.emb (ix3 (0 : Fin 1) r x)) = _
    rw [hW5 r x ch]
  have h6 : ∀ (r : Fin 32) (x : Fin 512) (ch : Fin 32), iblk m c 6 t (ix3 (0 : Fin 1) r x) = V m c main_v126 (pixel (((cfg0.win 8).blk t).view.emb (ix4 (0 : Fin 1) r x ch))) := by
    intro r x ch
    show V m c main_v126 (((cfg0.win 6).blk t).view.emb (ix3 (0 : Fin 1) r x)) = _
    rw [hW6 r x ch]
  have h7 : ∀ (r : Fin 32) (x : Fin 512) (ch : Fin 32), iblk m c 7 t (ix3 (0 : Fin 1) r x) = V m c main_v129 (pixel (((cfg0.win 8).blk t).view.emb (ix4 (0 : Fin 1) r x ch))) := by
    intro r x ch
    show V m c main_v129 (((cfg0.win 7).blk t).view.emb (ix3 (0 : Fin 1) r x)) = _
    rw [hW7 r x ch]
  funext j
  show k0_pay1 (k0_pay2 (iblk m c 4 t) (iblk m c 5 t) (iblk m c 6 t) (iblk m c 0 t) (iblk m c 1 t) (iblk m c 2 t)) (k0_pay3 (iblk m c 7 t) (iblk m c 3 t)) j
    = combine (V m c main_v50) (V m c main_v71) (V m c main_v92) (V m c main_v113) (V m c main_v120) (V m c main_v123) (V m c main_v126) (V m c main_v129) (((cfg0.win 8).blk t).view.emb j)
  exact band_eq (V m c main_v50) (V m c main_v71) (V m c main_v92) (V m c main_v113) (V m c main_v120) (V m c main_v123) (V m c main_v126) (V m c main_v129)
    (iblk m c 0 t) (iblk m c 1 t) (iblk m c 2 t) (iblk m c 3 t) (iblk m c 4 t) (iblk m c 5 t) (iblk m c 6 t) (iblk m c 7 t)
    (((cfg0.win 8).blk t).view.emb)
    h0 h1 h2 h3 h4 h5 h6 h7
    j

/-- An index of the result array is in point `t`'s block iff each coordinate is in the block's range on its axis. -/
theorem mem_blk8 (t : Fin cfg0.N) (i : S8x512x512x32.Idx) :
    i ∈ ((cfg0.win 8).blk t).view.set ↔ ∀ a : Fin 4, win0_8.index t a * S1x32x512x32.size a ≤ (i a).val ∧ (i a).val < win0_8.index t a * S1x32x512x32.size a + S1x32x512x32.size a := by
  show i ∈ ((View.whole main_v130).slice (win0_8.rect t)).set ↔ _
  rw [View.set_slice_whole, Rect.mem_set_unit]
  exact Iff.rfl

/-- The bands tile the result array: every entry is in the band of its batch entry and of its row divided by 32. -/
theorem cover8 (i : S8x512x512x32.Idx) :
    ∃ t : Fin cfg0.N, (cfg0.win 8).flush t = true ∧ i ∈ ((cfg0.win 8).blk t).view.set := by
  have hi0 : (i 0).val < 8 := (i 0).isLt
  have hi1 : (i 1).val < 512 := (i 1).isLt
  have hi2 : (i 2).val < 512 := (i 2).isLt
  have hi3 : (i 3).val < 32 := (i 3).isLt
  obtain ⟨t, ht⟩ := idx_onto ⟨(i 0).val, hi0⟩ ⟨(i 1).val / 32, by omega⟩
  have q0 : win0_8.index t (0 : Fin 4) = (i 0).val := congrFun ht 0
  have q1 : win0_8.index t (1 : Fin 4) = (i 1).val / 32 := congrFun ht 1
  have q2 : win0_8.index t (2 : Fin 4) = 0 := congrFun ht 2
  have q3 : win0_8.index t (3 : Fin 4) = 0 := congrFun ht 3
  refine ⟨t, flush0_8 t, ?_⟩
  rw [mem_blk8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 32 ≤ (i 1).val ∧ (i 1).val < win0_8.index t (1 : Fin 4) * 32 + 32; omega
  | ⟨2, _⟩ => show win0_8.index t (2 : Fin 4) * 512 ≤ (i 2).val ∧ (i 2).val < win0_8.index t (2 : Fin 4) * 512 + 512; omega
  | ⟨3, _⟩ => show win0_8.index t (3 : Fin 4) * 32 ≤ (i 3).val ∧ (i 3).val < win0_8.index t (3 : Fin 4) * 32 + 32; omega

/-- The result array after the run: the weighted sum of the eight arrays the region found. -/
theorem final8 (c : Dev nD) : (dats m 0 c).arrAt 8 cfg0.N = (combine (V m c main_v50) (V m c main_v71) (V m c main_v92) (V m c main_v113) (V m c main_v120) (V m c main_v123) (V m c main_v126) (V m c main_v129)) :=
  (dats m 0 c).arrAt_eq_of_cover 8 _ (fun t _ => flushed8_eq m c t) (cover8)

/-- The run, read: the result array at that weighted sum, the argument arrays as launched. -/
theorem run_value : θ_run defs (onTc (τ := τ) (main (F := Ideal))) ⟨m, fun _ => 0, ρ⟩ fun r => ∀ c : Dev nD,
      r.2.mem ((c.tc : Thread nD τ).loc main_v130) = (combine (V m c main_v50) (V m c main_v71) (V m c main_v92) (V m c main_v113) (V m c main_v120) (V m c main_v123) (V m c main_v126) (V m c main_v129))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).1 8).trans (final8 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Val

end
-- ==== Proof.LibNary3.lean ====
/-
  A host operation over a LITERAL family of three references (a concatenation of three arrays prints so): its result
  with each operand's contents read AT ITS OWN REFERENCE, `Fin.cons (F x) (Fin.cons (F a) (Fin.cons (F b) …))`, in
  place of the family read under a binder, `fun k => F (![x, a, b] k)`. Under the binder the reference is no literal,
  so nothing that computes a buffer's contents from the operations before it can go on into the operands; at their own
  references it can. The three-operand companion of the library's four-operand form; `nary3_result'` is the same
  statement with the result reference un-indexed, for use as a simp lemma beside the library's primed result lemmas.
-/
import Idealize.ShloMosaic.Lib.StableHlo.Run

noncomputable section

namespace Cert.LibNary3

open Idealize.ShloMosaic Idealize.ShloMosaic.StableHlo Idealize.SL.Sem

variable {τ : Topo} {sig : RefSig} {Val : EltTy → Type}
variable {x a b y : Ref sig .tc}

theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- A function of three arguments at equal arguments: used to bring the three operands of such an operation, one by
    one, to the top level of an equation. -/
theorem congr3 {α β γ δ : Sort _} (g : α → β → γ → δ) {a a' : α} {b b' : β} {c c' : γ}
    (ha : a = a') (hb : b = b') (hc : c = c') : g a b c = g a' b' c' := by
  subst ha hb hc; rfl

end Cert.LibNary3

end
-- ==== Proof.HostsEq.lean ====
/-
  The kernel's program computes, before its region, the same pixel coordinates, clamped neighbours, corner gathers and
  bilinear weights as the reference does, by the same operations on the same two argument arrays. So each of the eight
  arrays the region reads is the reference's stage of the same meaning, as a function of the arguments: the four
  corner gathers, and the four weights (x1 − x)(y1 − y), (x1 − x)(y − y0), (x − x0)(y1 − y), (x − x0)(y − y0).
  The region's arrays are the fold of the host operations over the launch contents; read at a buffer, the fold is a term
  of the two argument arrays, and that term is the stage. A gather's index array is a concatenation of three computed
  arrays: its equation is taken apart into the three, each read in its turn.
-/
import proofs.«163026_j86775519248465_1_alg».proof.Proof.FrameIdealHost
import proofs.«163026_j86775519248465_1_alg».proof.Proof.Gen.ReferenceIdeal.Read
import proofs.«163026_j86775519248465_1_alg».proof.Proof.LibNary3
import Idealize.ShloMosaic.Lib.StableHlo.Run

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen Cert.KernelIdeal.Frm Cert.LibNary3

variable {F : FTy → Type} [FloatOps F]
variable (m : (ℓ : Loc nD τ sig) → Buf (Elt F) ℓ)

set_option maxHeartbeats 80000000 in
/-- The four weights are the reference's weight stages of the grid argument. -/
theorem host_weights (c : Dev nD) :
    V m c main_v120 = Cert.ReferenceIdeal.Read.val_main_v120 (F := F) (m ((c.tc : Thread nD τ).loc main_arg1))
    ∧ V m c main_v123 = Cert.ReferenceIdeal.Read.val_main_v124 (F := F) (m ((c.tc : Thread nD τ).loc main_arg1))
    ∧ V m c main_v126 = Cert.ReferenceIdeal.Read.val_main_v128 (F := F) (m ((c.tc : Thread nD τ).loc main_arg1))
    ∧ V m c main_v129 = Cert.ReferenceIdeal.Read.val_main_v132 (F := F) (m ((c.tc : Thread nD τ).loc main_arg1)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [after_cons, after_nil,
    nullary_result', unary_result', binary_result', ternary_result', quaternary_result', reshape_result', nary3_result',
    unaryIndexed_result', binaryIndexed_result',
    nullary_result_ne', unary_result_ne', binary_result_ne', ternary_result_ne', quaternary_result_ne', reshape_result_ne',
    nary_result_ne', unaryIndexed_result_ne', binaryIndexed_result_ne']
  exact ⟨rfl, rfl, rfl, rfl⟩

set_option maxHeartbeats 160000000 in
/-- The four corner gathers are the reference's gather stages of the two arguments. -/
theorem host_gathers (c : Dev nD) :
    V m c main_v50 = Cert.ReferenceIdeal.Read.val_main_v50 (F := F) (m ((c.tc : Thread nD τ).loc main_arg0)) (m ((c.tc : Thread nD τ).loc main_arg1))
    ∧ V m c main_v71 = Cert.ReferenceIdeal.Read.val_main_v71 (F := F) (m ((c.tc : Thread nD τ).loc main_arg0)) (m ((c.tc : Thread nD τ).loc main_arg1))
    ∧ V m c main_v92 = Cert.ReferenceIdeal.Read.val_main_v92 (F := F) (m ((c.tc : Thread nD τ).loc main_arg0)) (m ((c.tc : Thread nD τ).loc main_arg1))
    ∧ V m c main_v113 = Cert.ReferenceIdeal.Read.val_main_v113 (F := F) (m ((c.tc : Thread nD τ).loc main_arg0)) (m ((c.tc : Thread nD τ).loc main_arg1)) := by
  dsimp only [V]
  simp only [hostOps0, hostOps0_1, hostOps0_2, hostOps0_3, hostOps0_4, hostOps0_5, hostOps0_6, hostOps0_7, hostOps0_8, List.flatten_cons, List.flatten_nil, List.append_nil, List.cons_append, List.nil_append]
  simp (disch := decide) only [after_cons, after_nil,
    nullary_result', unary_result', binary_result', ternary_result', quaternary_result', reshape_result', nary3_result',
    unaryIndexed_result', binaryIndexed_result',
    nullary_result_ne', unary_result_ne', binary_result_ne', ternary_result_ne', quaternary_result_ne', reshape_result_ne',
    nary_result_ne', unaryIndexed_result_ne', binaryIndexed_result_ne']
  refine ⟨(congr3 (fun a b c' => Host.gather gather_S8x512x512x32_S8x512x512x3_S8x512x512x32_3_012_n_n_012_3_11132 (m ((c.tc : Thread nD τ).loc main_arg0)) (concatenate S8x512x512x3 3 [⟨S8x512x512x1, a⟩, ⟨S8x512x512x1, b⟩, ⟨S8x512x512x1, c'⟩] concatenates_S8x512x512x1_S8x512x512x1_S8x512x512x1_S8x512x512x3_d3)) (a' := Cert.ReferenceIdeal.Read.val_main_v46 (F := F)) (b' := Cert.ReferenceIdeal.Read.val_main_v47 (F := F) (m ((c.tc : Thread nD τ).loc main_arg1))) (c' := Cert.ReferenceIdeal.Read.val_main_v48 (F := F) (m ((c.tc : Thread nD τ).loc main_arg1))) ?_ ?_ ?_).trans rfl,
    (congr3 (fun a b c' => Host.gather gather_S8x512x512x32_S8x512x512x3_S8x512x512x32_3_012_n_n_012_3_11132 (m ((c.tc : Thread nD τ).loc main_arg0)) (concatenate S8x512x512x3 3 [⟨S8x512x512x1, a⟩, ⟨S8x512x512x1, b⟩, ⟨S8x512x512x1, c'⟩] concatenates_S8x512x512x1_S8x512x512x1_S8x512x512x1_S8x512x512x3_d3)) (a' := Cert.ReferenceIdeal.Read.val_main_v67 (F := F)) (b' := Cert.ReferenceIdeal.Read.val_main_v68 (F := F) (m ((c.tc : Thread nD τ).loc main_arg1))) (c' := Cert.ReferenceIdeal.Read.val_main_v69 (F := F) (m ((c.tc : Thread nD τ).loc main_arg1))) ?_ ?_ ?_).trans rfl,
    (congr3 (fun a b c' => Host.gather gather_S8x512x512x32_S8x512x512x3_S8x512x512x32_3_012_n_n_012_3_11132 (m ((c.tc : Thread nD τ).loc main_arg0)) (concatenate S8x512x512x3 3 [⟨S8x512x512x1, a⟩, ⟨S8x512x512x1, b⟩, ⟨S8x512x512x1, c'⟩] concatenates_S8x512x512x1_S8x512x512x1_S8x512x512x1_S8x512x512x3_d3)) (a' := Cert.ReferenceIdeal.Read.val_main_v88 (F := F)) (b' := Cert.ReferenceIdeal.Read.val_main_v89 (F := F) (m ((c.tc : Thread nD τ).loc main_arg1))) (c' := Cert.ReferenceIdeal.Read.val_main_v90 (F := F) (m ((c.tc : Thread nD τ).loc main_arg1))) ?_ ?_ ?_).trans rfl,
    (congr3 (fun a b c' => Host.gather gather_S8x512x512x32_S8x512x512x3_S8x512x512x32_3_012_n_n_012_3_11132 (m ((c.tc : Thread nD τ).loc main_arg0)) (concatenate S8x512x512x3 3 [⟨S8x512x512x1, a⟩, ⟨S8x512x512x1, b⟩, ⟨S8x512x512x1, c'⟩] concatenates_S8x512x512x1_S8x512x512x1_S8x512x512x1_S8x512x512x3_d3)) (a' := Cert.ReferenceIdeal.Read.val_main_v109 (F := F)) (b' := Cert.ReferenceIdeal.Read.val_main_v110 (F := F) (m ((c.tc : Thread nD τ).loc main_arg1))) (c' := Cert.ReferenceIdeal.Read.val_main_v111 (F := F) (m ((c.tc : Thread nD τ).loc main_arg1))) ?_ ?_ ?_).trans rfl⟩
  · refine (Fin.cons_zero _ _).trans ?_
    simp (disch := decide) only [after_cons, after_nil,
    nullary_result', unary_result', binary_result', ternary_result', quaternary_result', reshape_result', nary3_result',
    unaryIndexed_result', binaryIndexed_result',
    nullary_result_ne', unary_result_ne', binary_result_ne', ternary_result_ne', quaternary_result_ne', reshape_result_ne',
    nary_result_ne', unaryIndexed_result_ne', binaryIndexed_result_ne']
    rfl
  · refine ((Fin.cons_one _ _).trans (Fin.cons_zero _ _)).trans ?_
    simp (disch := decide) only [after_cons, after_nil,
    nullary_result', unary_result', binary_result', ternary_result', quaternary_result', reshape_result', nary3_result',
    unaryIndexed_result', binaryIndexed_result',
    nullary_result_ne', unary_result_ne', binary_result_ne', ternary_result_ne', quaternary_result_ne', reshape_result_ne',
    nary_result_ne', unaryIndexed_result_ne', binaryIndexed_result_ne']
    rfl
  · refine ((Fin.cons_succ _ _ (1 : Fin 2)).trans ((Fin.cons_one _ _).trans (Fin.cons_zero _ _))).trans ?_
    simp (disch := decide) only [after_cons, after_nil,
    nullary_result', unary_result', binary_result', ternary_result', quaternary_result', reshape_result', nary3_result',
    unaryIndexed_result', binaryIndexed_result',
    nullary_result_ne', unary_result_ne', binary_result_ne', ternary_result_ne', quaternary_result_ne', reshape_result_ne',
    nary_result_ne', unaryIndexed_result_ne', binaryIndexed_result_ne']
    rfl
  · refine (Fin.cons_zero _ _).trans ?_
    simp (disch := decide) only [after_cons, after_nil,
    nullary_result', unary_result', binary_result', ternary_result', quaternary_result', reshape_result', nary3_result',
    unaryIndexed_result', binaryIndexed_result',
    nullary_result_ne', unary_result_ne', binary_result_ne', ternary_result_ne', quaternary_result_ne', reshape_result_ne',
    nary_result_ne', unaryIndexed_result_ne', binaryIndexed_result_ne']
    rfl
  · refine ((Fin.cons_one _ _).trans (Fin.cons_zero _ _)).trans ?_
    simp (disch := decide) only [after_cons, after_nil,
    nullary_result', unary_result', binary_result', ternary_result', quaternary_result', reshape_result', nary3_result',
    unaryIndexed_result', binaryIndexed_result',
    nullary_result_ne', unary_result_ne', binary_result_ne', ternary_result_ne', quaternary_result_ne', reshape_result_ne',
    nary_result_ne', unaryIndexed_result_ne', binaryIndexed_result_ne']
    rfl
  · refine ((Fin.cons_succ _ _ (1 : Fin 2)).trans ((Fin.cons_one _ _).trans (Fin.cons_zero _ _))).trans ?_
    simp (disch := decide) only [after_cons, after_nil,
    nullary_result', unary_result', binary_result', ternary_result', quaternary_result', reshape_result', nary3_result',
    unaryIndexed_result', binaryIndexed_result',
    nullary_result_ne', unary_result_ne', binary_result_ne', ternary_result_ne', quaternary_result_ne', reshape_result_ne',
    nary_result_ne', unaryIndexed_result_ne', binaryIndexed_result_ne']
    rfl
  · refine (Fin.cons_zero _ _).trans ?_
    simp (disch := decide) only [after_cons, after_nil,
    nullary_result', unary_result', binary_result', ternary_result', quaternary_result', reshape_result', nary3_result',
    unaryIndexed_result', binaryIndexed_result',
    nullary_result_ne', unary_result_ne', binary_result_ne', ternary_result_ne', quaternary_result_ne', reshape_result_ne',
    nary_result_ne', unaryIndexed_result_ne', binaryIndexed_result_ne']
    rfl
  · refine ((Fin.cons_one _ _).trans (Fin.cons_zero _ _)).trans ?_
    simp (disch := decide) only [after_cons, after_nil,
    nullary_result', unary_result', binary_result', ternary_result', quaternary_result', reshape_result', nary3_result',
    unaryIndexed_result', binaryIndexed_result',
    nullary_result_ne', unary_result_ne', binary_result_ne', ternary_result_ne', quaternary_result_ne', reshape_result_ne',
    nary_result_ne', unaryIndexed_result_ne', binaryIndexed_result_ne']
    rfl
  · refine ((Fin.cons_succ _ _ (1 : Fin 2)).trans ((Fin.cons_one _ _).trans (Fin.cons_zero _ _))).trans ?_
    simp (disch := decide) only [after_cons, after_nil,
    nullary_result', unary_result', binary_result', ternary_result', quaternary_result', reshape_result', nary3_result',
    unaryIndexed_result', binaryIndexed_result',
    nullary_result_ne', unary_result_ne', binary_result_ne', ternary_result_ne', quaternary_result_ne', reshape_result_ne',
    nary_result_ne', unaryIndexed_result_ne', binaryIndexed_result_ne']
    rfl
  · refine (Fin.cons_zero _ _).trans ?_
    simp (disch := decide) only [after_cons, after_nil,
    nullary_result', unary_result', binary_result', ternary_result', quaternary_result', reshape_result', nary3_result',
    unaryIndexed_result', binaryIndexed_result',
    nullary_result_ne', unary_result_ne', binary_result_ne', ternary_result_ne', quaternary_result_ne', reshape_result_ne',
    nary_result_ne', unaryIndexed_result_ne', binaryIndexed_result_ne']
    rfl
  · refine ((Fin.cons_one _ _).trans (Fin.cons_zero _ _)).trans ?_
    simp (disch := decide) only [after_cons, after_nil,
    nullary_result', unary_result', binary_result', ternary_result', quaternary_result', reshape_result', nary3_result',
    unaryIndexed_result', binaryIndexed_result',
    nullary_result_ne', unary_result_ne', binary_result_ne', ternary_result_ne', quaternary_result_ne', reshape_result_ne',
    nary_result_ne', unaryIndexed_result_ne', binaryIndexed_result_ne']
    rfl
  · refine ((Fin.cons_succ _ _ (1 : Fin 2)).trans ((Fin.cons_one _ _).trans (Fin.cons_zero _ _))).trans ?_
    simp (disch := decide) only [after_cons, after_nil,
    nullary_result', unary_result', binary_result', ternary_result', quaternary_result', reshape_result', nary3_result',
    unaryIndexed_result', binaryIndexed_result',
    nullary_result_ne', unary_result_ne', binary_result_ne', ternary_result_ne', quaternary_result_ne', reshape_result_ne',
    nary_result_ne', unaryIndexed_result_ne', binaryIndexed_result_ne']
    rfl

end Cert.KernelIdeal.Val

end
-- ==== Proof.RefSide.lean ====
/-
  The reference's side. Its last operations repeat each of its four per-pixel weights along a new unit axis and then
  along the channel axis, multiply each by its gathered corner image and add the four products from the left. Read at
  an entry (b, y, x, ch), a repeated weight is the weight of the pixel (b, y, x): so the result array is the weighted
  sum of the reference's four gathers with its four weights, entry by entry.
-/
import proofs.«163026_j86775519248465_1_alg».proof.Proof.Gen.ReferenceIdeal.Run
import proofs.«163026_j86775519248465_1_alg».proof.Proof.Gen.ReferenceIdeal.Read
import proofs.«163026_j86775519248465_1_alg».proof.Proof.Spec

noncomputable section

namespace Cert.ReferenceIdeal.RefValue

open Cert.ReferenceIdeal Cert.ReferenceIdeal.Gen Cert.ReferenceIdeal.Read Cert.Bilinear
open Idealize.ShloMosaic Idealize.ShloMosaic.TcCoe Idealize.SL.Sem

/-! The two broadcasts of a weight, composed, read the pixel of the entry. -/
theorem px_a (i : S8x512x512x32.Idx) : idx_main_v121 (idx_main_v134 i) = pixel i := by
  funext a; apply Fin.ext
  match a with
  | ⟨0, _⟩ => rfl
  | ⟨1, _⟩ => rfl
  | ⟨2, _⟩ => rfl
theorem px_b (i : S8x512x512x32.Idx) : idx_main_v125 (idx_main_v136 i) = pixel i := by
  funext a; apply Fin.ext
  match a with
  | ⟨0, _⟩ => rfl
  | ⟨1, _⟩ => rfl
  | ⟨2, _⟩ => rfl
theorem px_c (i : S8x512x512x32.Idx) : idx_main_v129 (idx_main_v139 i) = pixel i := by
  funext a; apply Fin.ext
  match a with
  | ⟨0, _⟩ => rfl
  | ⟨1, _⟩ => rfl
  | ⟨2, _⟩ => rfl
theorem px_d (i : S8x512x512x32.Idx) : idx_main_v133 (idx_main_v142 i) = pixel i := by
  funext a; apply Fin.ext
  match a with
  | ⟨0, _⟩ => rfl
  | ⟨1, _⟩ => rfl
  | ⟨2, _⟩ => rfl

/-- The reference's result stage is the weighted sum of its gather stages with its weight stages. -/
theorem result_eq (x0 : (⟨S8x512x512x32, .f32⟩ : BufTy).Contents (Elt Ideal)) (x1 : (⟨S8x512x512x2, .f32⟩ : BufTy).Contents (Elt Ideal)) :
    val_main_v144 (F := Ideal) x0 x1
      = combine (val_main_v50 (F := Ideal) x0 x1) (val_main_v71 (F := Ideal) x0 x1) (val_main_v92 (F := Ideal) x0 x1) (val_main_v113 (F := Ideal) x0 x1)
          (val_main_v120 (F := Ideal) x1) (val_main_v124 (F := Ideal) x1) (val_main_v128 (F := Ideal) x1) (val_main_v132 (F := Ideal) x1) := by
  funext i
  rw [val_main_v144_apply, val_main_v141_apply, val_main_v143_apply, val_main_v138_apply, val_main_v140_apply,
    val_main_v135_apply, val_main_v137_apply, val_main_v134_apply, val_main_v136_apply, val_main_v139_apply, val_main_v142_apply,
    val_main_v121_apply, val_main_v125_apply, val_main_v129_apply, val_main_v133_apply, px_a, px_b, px_c, px_d, combine_apply]
  rfl

/-- The reference's run, read: the result array at that weighted sum, the argument arrays as launched. -/
theorem run_value (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v144)
        = combine (val_main_v50 (F := Ideal) (m ((c.tc : Thread nD τ).loc main_arg0)) (m ((c.tc : Thread nD τ).loc main_arg1)))
            (val_main_v71 (F := Ideal) (m ((c.tc : Thread nD τ).loc main_arg0)) (m ((c.tc : Thread nD τ).loc main_arg1)))
            (val_main_v92 (F := Ideal) (m ((c.tc : Thread nD τ).loc main_arg0)) (m ((c.tc : Thread nD τ).loc main_arg1)))
            (val_main_v113 (F := Ideal) (m ((c.tc : Thread nD τ).loc main_arg0)) (m ((c.tc : Thread nD τ).loc main_arg1)))
            (val_main_v120 (F := Ideal) (m ((c.tc : Thread nD τ).loc main_arg1)))
            (val_main_v124 (F := Ideal) (m ((c.tc : Thread nD τ).loc main_arg1)))
            (val_main_v128 (F := Ideal) (m ((c.tc : Thread nD τ).loc main_arg1)))
            (val_main_v132 (F := Ideal) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v144_eq m c).trans (result_eq _ _)), (h c).2⟩)
    (Cert.ReferenceIdeal.Value.run (F := Ideal) m ρ)

end Cert.ReferenceIdeal.RefValue

end
-- ==== Proof.lean ====
/-
  Bilinear grid sampling over a batch of 8 images of 512 × 512 pixels and 32 channels: both programs compute, from the
  sampling grid, each pixel's source coordinates, their floors and the clamped neighbours, gather the image at the four
  corners and form the four bilinear weights; they differ only in the last stage, the weighted sum
  ((wa·Ia + wb·Ib) + wc·Ic) + wd·Id, which the kernel's program runs as one region over bands of 32 rows and the
  reference as array operations. The two host prefixes are the same operations on the same arguments, so the eight
  arrays agree; the region leaves the weighted sum of the arrays it finds, and the reference's last operations, read
  entry by entry, are the same weighted sum, with the same grouping. No law of the extended reals is needed beyond that,
  and the precondition is not used.
  The frames: the reference's is its run with the result dropped; each of the kernel's two is the region's frame run,
  the host prefix writing neither argument and no window staging one.
-/
import proofs.«163026_j86775519248465_1_alg».proof.Defs
import proofs.«163026_j86775519248465_1_alg».proof.Proof.Gen.Kernel
import proofs.«163026_j86775519248465_1_alg».proof.Proof.Gen.KernelIdeal
import proofs.«163026_j86775519248465_1_alg».proof.Proof.Gen.ReferenceIdeal
import proofs.«163026_j86775519248465_1_alg».proof.Proof.Gen.Pre_finite_inputs
import proofs.«163026_j86775519248465_1_alg».proof.Proof.FrameBits
import proofs.«163026_j86775519248465_1_alg».proof.Proof.FrameIdeal
import proofs.«163026_j86775519248465_1_alg».proof.Proof.ValueIdeal
import proofs.«163026_j86775519248465_1_alg».proof.Proof.HostsEq
import proofs.«163026_j86775519248465_1_alg».proof.Proof.RefSide
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Frm.frame m ρ

theorem frame_ki : Cert.frame_KernelIdeal (hKernelIdeal := Cert.KernelIdeal.Gen.facts) (hPre_finite_inputs := Cert.Pre_finite_inputs.Gen.facts) :=
  fun m ρ _ => Cert.KernelIdeal.Frm.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both results are the weighted sum of the same four gathers with the same four weights of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Bilinear.combine (Cert.KernelIdeal.Frm.V m c Cert.KernelIdeal.main_v50) (Cert.KernelIdeal.Frm.V m c Cert.KernelIdeal.main_v71) (Cert.KernelIdeal.Frm.V m c Cert.KernelIdeal.main_v92) (Cert.KernelIdeal.Frm.V m c Cert.KernelIdeal.main_v113)
      (Cert.KernelIdeal.Frm.V m c Cert.KernelIdeal.main_v120) (Cert.KernelIdeal.Frm.V m c Cert.KernelIdeal.main_v123) (Cert.KernelIdeal.Frm.V m c Cert.KernelIdeal.main_v126) (Cert.KernelIdeal.Frm.V m c Cert.KernelIdeal.main_v129), Cert.KernelIdeal.Val.run_value m ρ, ?_⟩
  refine (θ_run Cert.ReferenceIdeal.defs _ _).mono (fun _ h c => ⟨(h c).1.trans ?_, (h c).2⟩)
    (Cert.ReferenceIdeal.RefValue.run_value m' ρ')
  dsimp only
  obtain ⟨g0, g1, g2, g3⟩ := Cert.KernelIdeal.Val.host_gathers (F := Ideal) m c
  obtain ⟨w0, w1, w2, w3⟩ := Cert.KernelIdeal.Val.host_weights (F := Ideal) m c
  rw [(hagree c).1, (hagree c).2, g0, g1, g2, g3, w0, w1, w2, w3]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
